-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4x16 : Shape := ⟨3, ![50000, 4, 16]⟩
abbrev S1600000x4x4 : Shape := ⟨3, ![1600000, 4, 4]⟩
abbrev S2x1600000 : Shape := ⟨2, ![2, 1600000]⟩
abbrev S1600000 : Shape := ⟨1, ![1600000]⟩
abbrev S_ : Shape := ⟨0, ![]⟩

class Facts : Prop where
  bcast_S_S50000x4x16 : S_.BroadcastsInDim S50000x4x16 (![] : Fin 0 → Fin S50000x4x16.rank)
  reducesTo_S50000x4x16_S_d0_1_2 : S50000x4x16.ReducesTo [0, 1, 2] S_
  h_S_ : 0 < S_.numel
  bcast_S_S1600000x4x4 : S_.BroadcastsInDim S1600000x4x4 (![] : Fin 0 → Fin S1600000x4x4.rank)
  reducesTo_S1600000x4x4_S_d0_1_2 : S1600000x4x4.ReducesTo [0, 1, 2] S_

variable [Facts]

def fn {F : FTy → Type} [FloatOps F] (main_arg0 : FVec F S50000x4x16 .f32) (main_arg1 : FVec F S1600000x4x4 .f32) (main_arg2 : IVec S2x1600000 32) (main_arg3 : IVec S1600000 32) : IVec S_ 1 :=
  let main_v0 : FVec F S50000x4x16 .f32 := Host.absf main_arg0
  let main_cst : FVec F S_ .f32 := constant S_ .f32 0x7F800000#32
  let main_v1 : FVec F S50000x4x16 .f32 := broadcastInDim S50000x4x16 ![] bcast_S_S50000x4x16 main_cst
  let main_v2 : IVec S50000x4x16 1 := cmpf .olt main_v0 main_v1
  let main_c : IVec S_ 1 := constantI S_ 1 1#1
  let main_v3 : IVec S_ 1 := (fun x v => Host.reduce IntOp.andi x v reducesTo_S50000x4x16_S_d0_1_2 h_S_) main_v2 main_c
  let main_v4 : FVec F S1600000x4x4 .f32 := Host.absf main_arg1
  let main_cst_0 : FVec F S_ .f32 := constant S_ .f32 0x7F800000#32
  let main_v5 : FVec F S1600000x4x4 .f32 := broadcastInDim S1600000x4x4 ![] bcast_S_S1600000x4x4 main_cst_0
  let main_v6 : IVec S1600000x4x4 1 := cmpf .olt main_v4 main_v5
  let main_c_1 : IVec S_ 1 := constantI S_ 1 1#1
  let main_v7 : IVec S_ 1 := (fun x v => Host.reduce IntOp.andi x v reducesTo_S1600000x4x4_S_d0_1_2 h_S_) main_v6 main_c_1
  let main_v8 : IVec S_ 1 := andi main_v3 main_v7
  main_v8
-- ==== Kernel.lean ====
abbrev S50000x4x16 : Shape := ⟨3, ![50000, 4, 16]⟩
abbrev S1600000x4x4 : Shape := ⟨3, ![1600000, 4, 4]⟩
abbrev S2x1600000 : Shape := ⟨2, ![2, 1600000]⟩
abbrev S1600000 : Shape := ⟨1, ![1600000]⟩
abbrev S1x1600000 : Shape := ⟨2, ![1, 1600000]⟩
abbrev S50000x64 : Shape := ⟨2, ![50000, 64]⟩
abbrev S1600000x16 : Shape := ⟨2, ![1600000, 16]⟩
abbrev S_ : Shape := ⟨0, ![]⟩
abbrev S1600000x1 : Shape := ⟨2, ![1600000, 1]⟩
abbrev S1600000x64 : Shape := ⟨2, ![1600000, 64]⟩
abbrev S2x1x128 : Shape := ⟨3, ![2, 1, 128]⟩
abbrev S800x64 : Shape := ⟨2, ![800, 64]⟩
abbrev S800x16 : Shape := ⟨2, ![800, 16]⟩
abbrev S1x1x128 : Shape := ⟨3, ![1, 1, 128]⟩
abbrev S800x1 : Shape := ⟨2, ![800, 1]⟩
abbrev S1x800x64 : Shape := ⟨3, ![1, 800, 64]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 43
  | .vmem => 10
  | .smem => 0
  | _ => 0

abbrev bufTy : (tb : Table) → Fin (tcTables nBuf tb) → BufTy
  | .hbm, ⟨0, _⟩ => ⟨S50000x4x16, .f32⟩
  | .hbm, ⟨1, _⟩ => ⟨S1600000x4x4, .f32⟩
  | .hbm, ⟨2, _⟩ => ⟨S2x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S50000x64, .f32⟩
  | .hbm, ⟨9, _⟩ => ⟨S1600000x16, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x4x4, .f32⟩
  | .hbm, ⟨19, _⟩ => ⟨S1600000x16, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S2x1x128, .f32⟩
  | .hbm, ⟨39, _⟩ => ⟨S2x1x1, .f32⟩
  | .hbm, ⟨40, _⟩ => ⟨S2, .f32⟩
  | .hbm, ⟨41, _⟩ => ⟨S_, .f32⟩
  | .hbm, ⟨42, _⟩ => ⟨S_, .f32⟩
  | .local _ .vmem, ⟨0, _⟩ => ⟨S800x64, .f32⟩
  | .local _ .vmem, ⟨1, _⟩ => ⟨S800x64, .f32⟩
  | .local _ .vmem, ⟨2, _⟩ => ⟨S800x64, .f32⟩
  | .local _ .vmem, ⟨3, _⟩ => ⟨S800x64, .f32⟩
  | .local _ .vmem, ⟨4, _⟩ => ⟨S800x16, .f32⟩
  | .local _ .vmem, ⟨5, _⟩ => ⟨S800x16, .f32⟩
  | .local _ .vmem, ⟨6, _⟩ => ⟨S800x16, .f32⟩
  | .local _ .vmem, ⟨7, _⟩ => ⟨S800x16, .f32⟩
  | .local _ .vmem, ⟨8, _⟩ => ⟨S1x1x128, .f32⟩
  | .local _ .vmem, ⟨9, _⟩ => ⟨S1x1x128, .f32⟩
  | _, _ => ⟨S50000x4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1000], ![false, false]⟩

def cc0_transform_0 (i : grid0.Coords) : Fin 2 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S800x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S800x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S50000x4x16_S50000x64 : S50000x4x16.ShapeCasts S50000x64
  shapeCasts_S1600000x4x4_S1600000x16 : S1600000x4x4.ShapeCasts S1600000x16
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S1x1x128_S1x1x128_0_0_0 : ∀ a, (![0, 0, 0] : Fin 3 → Nat) a + S1x1x128.size a ≤ S1x1x128.size a
  h_S1x1x128 : 0 < S1x1x128.numel
  inb_S800x64_S800x64_0_0 : ∀ a, (![0, 0] : Fin 2 → Nat) a + S800x64.size a ≤ S800x64.size a
  h_S800x64 : 0 < S800x64.numel
  shapeCasts_S800x64_S800x64 : S800x64.ShapeCasts S800x64
  inb_S800x16_S800x16_0_0 : ∀ a, (![0, 0] : Fin 2 → Nat) a + S800x16.size a ≤ S800x16.size a
  h_S800x16 : 0 < S800x16.numel
  shapeCasts_S800x16_S800x16 : S800x16.ShapeCasts S800x16
  slices_S800x16_o0_0_S800x1 : S800x16.Slices ![0, 0] S800x1
  slices_S800x64_o0_0_S800x16 : S800x64.Slices ![0, 0] S800x16
  broadcasts_S800x1_S800x16 : S800x1.Broadcasts S800x16
  slices_S800x16_o0_1_S800x1 : S800x16.Slices ![0, 1] S800x1
  slices_S800x64_o0_16_S800x16 : S800x64.Slices ![0, 16] S800x16
  slices_S800x16_o0_2_S800x1 : S800x16.Slices ![0, 2] S800x1
  slices_S800x64_o0_32_S800x16 : S800x64.Slices ![0, 32] S800x16
  slices_S800x16_o0_3_S800x1 : S800x16.Slices ![0, 3] S800x1
  slices_S800x64_o0_48_S800x16 : S800x64.Slices ![0, 48] S800x16
  slices_S800x16_o0_4_S800x1 : S800x16.Slices ![0, 4] S800x1
  slices_S800x16_o0_5_S800x1 : S800x16.Slices ![0, 5] S800x1
  slices_S800x16_o0_6_S800x1 : S800x16.Slices ![0, 6] S800x1
  slices_S800x16_o0_7_S800x1 : S800x16.Slices ![0, 7] S800x1
  slices_S800x16_o0_8_S800x1 : S800x16.Slices ![0, 8] S800x1
  slices_S800x16_o0_9_S800x1 : S800x16.Slices ![0, 9] S800x1
  slices_S800x16_o0_10_S800x1 : S800x16.Slices ![0, 10] S800x1
  slices_S800x16_o0_11_S800x1 : S800x16.Slices ![0, 11] S800x1
  slices_S800x16_o0_12_S800x1 : S800x16.Slices ![0, 12] S800x1
  slices_S800x16_o0_13_S800x1 : S800x16.Slices ![0, 13] S800x1
  slices_S800x16_o0_14_S800x1 : S800x16.Slices ![0, 14] S800x1
  slices_S800x16_o0_15_S800x1 : S800x16.Slices ![0, 15] S800x1
  concatenates_S800x16_S800x16_S800x16_S800x16_S800x64_d1 : Shape.Concatenates [S800x16, S800x16, S800x16, S800x16] S800x64 1
  shapeCasts_S800x64_S1x800x64 : S800x64.ShapeCasts S1x800x64
  reduces_S1x800x64_S1 : S1x800x64.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  natLt_1_32 : 1 < 32
  shapeCasts_S1x1x128_S1x1x128 : S1x1x128.ShapeCasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  gather_S1600000x4x4_S1600000x1_S1600000x4x4_12_0_n_n_0_1_144_wf : GatherDims.WF S1600000x4x4 S1600000x1 S1600000x4x4 [1, 2] [0] [] [0] [] 1 ![1, 4, 4]
  gather_S50000x64_S1600000x1_S1600000x64_1_0_n_n_0_1_164_wf : GatherDims.WF S50000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x64.size a ≤ S1600000x64.size a
  hwx0_0 : ∀ i : grid0.Coords, EltTy.bits .f32 = 32 ∨ (Rect.block (s := S1600000x64) S800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x64.size a ≤ S1600000x64.size a
  hwx0_1 : ∀ i : grid0.Coords, EltTy.bits .f32 = 32 ∨ (Rect.block (s := S1600000x64) S800x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x16.size a ≤ S1600000x16.size a
  hwx0_2 : ∀ i : grid0.Coords, EltTy.bits .f32 = 32 ∨ (Rect.block (s := S1600000x16) S800x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x16.size a ≤ S1600000x16.size a
  hwx0_3 : ∀ i : grid0.Coords, EltTy.bits .f32 = 32 ∨ (Rect.block (s := S1600000x16) S800x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

def gather_S1600000x4x4_S1600000x1_S1600000x4x4_12_0_n_n_0_1_144 : GatherDims S1600000x4x4 S1600000x1 S1600000x4x4 where
  offsetDims := [1, 2]
  collapsedSliceDims := [0]
  operandBatchingDims := []
  startIndicesBatchingDims := []
  startIndexMap := [0]
  indexVectorDim := 1
  sliceSizes := ![1, 4, 4]
  wf := gather_S1600000x4x4_S1600000x1_S1600000x4x4_12_0_n_n_0_1_144_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf

abbrev win0_0 : Pipeline.Window sig grid0 :=
  Pipeline.Window.ofSpec (Memref.whole main_v20) S800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S800x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S800x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x4x16 : Shape := ⟨3, ![50000, 4, 16]⟩
abbrev S1600000x4x4 : Shape := ⟨3, ![1600000, 4, 4]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x4x16 : Shape := ⟨3, ![1600000, 4, 16]⟩

abbrev nBuf : Space → Nat
  | .hbm => 41
  | .vmem => 0
  | .smem => 0
  | _ => 0

abbrev bufTy : (tb : Table) → Fin (tcTables nBuf tb) → BufTy
  | .hbm, ⟨0, _⟩ => ⟨S50000x4x16, .f32⟩
  | .hbm, ⟨1, _⟩ => ⟨S1600000x4x4, .f32⟩
  | .hbm, ⟨2, _⟩ => ⟨S2x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x4x4, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x4x16, .f32⟩
  | .hbm, ⟨26, _⟩ => ⟨S1600000x4x16, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x4x16, .f32⟩
  | .hbm, ⟨36, _⟩ => ⟨S1600000x4x16, .f32⟩
  | .hbm, ⟨37, _⟩ => ⟨S1600000x4x16, .f32⟩
  | .hbm, ⟨38, _⟩ => ⟨S1600000x4x16, .f32⟩
  | .hbm, ⟨39, _⟩ => ⟨S_, .f32⟩
  | .hbm, ⟨40, _⟩ => ⟨S_, .f32⟩
  | _, _ => ⟨S50000x4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x4x16_S_d0_1_2 : S1600000x4x16.ReducesTo [0, 1, 2] S_
  h_S_ : 0 < S_.numel
  gather_S1600000x4x4_S1600000x1_S1600000x4x4_12_0_n_n_0_1_144_wf : GatherDims.WF S1600000x4x4 S1600000x1 S1600000x4x4 [1, 2] [0] [] [0] [] 1 ![1, 4, 4]
  gather_S50000x4x16_S1600000x1_S1600000x4x16_12_0_n_n_0_1_1416_wf : GatherDims.WF S50000x4x16 S1600000x1 S1600000x4x16 [1, 2] [0] [] [0] [] 1 ![1, 4, 16]
  dot_S1600000x4x4_S1600000x4x16_S1600000x4x16_2_1_1_2_0_0_wf : DotDims.WF S1600000x4x4 S1600000x4x16 S1600000x4x16 [2] [1] [1] [2] [0] [0]

variable [Facts₀]

def gather_S1600000x4x4_S1600000x1_S1600000x4x4_12_0_n_n_0_1_144 : GatherDims S1600000x4x4 S1600000x1 S1600000x4x4 where
  offsetDims := [1, 2]
  collapsedSliceDims := [0]
  operandBatchingDims := []
  startIndicesBatchingDims := []
  startIndexMap := [0]
  indexVectorDim := 1
  sliceSizes := ![1, 4, 4]
  wf := gather_S1600000x4x4_S1600000x1_S1600000x4x4_12_0_n_n_0_1_144_wf
def gather_S50000x4x16_S1600000x1_S1600000x4x16_12_0_n_n_0_1_1416 : GatherDims S50000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S50000x4x16_S1600000x1_S1600000x4x16_12_0_n_n_0_1_1416_wf
def dot_S1600000x4x4_S1600000x4x16_S1600000x4x16_2_1_1_2_0_0 : DotDims S1600000x4x4 S1600000x4x16 S1600000x4x16 where
  lhsContracting := [2]
  rhsContracting := [1]
  lhsNonContracting := [1]
  rhsNonContracting := [2]
  lhsBatch := [0]
  rhsBatch := [0]
  wf := dot_S1600000x4x4_S1600000x4x16_S1600000x4x16_2_1_1_2_0_0_wf

class Facts : Prop extends Facts₀ where

variable [Facts]
-- ==== Proof.Body.lean ====
/-
  What one run of the kernel's body leaves in the output tile, as one pure function of the four input tiles and of
  the tile's previous contents.

  The body holds a [1, 1, 128] tile of partial sums. At the first chunk of a core it stores zeros into the tile
  and reads them back; at every chunk it adds, into the tile it read, the chunk's sum of squares times the lane mask
  (one on lane 0, zero elsewhere) and stores the result. So the tile after a chunk is `tileAfter` of the four input
  tiles and of what the tile held before: zeros at the first chunk of a core (`tile_first`), the previous chunk's
  tile otherwise (`tile_next`).
-/
import proofs.«431077_j49340584296528_4_alg».proof.Proof.Gen.KernelIdeal.Frame
import Idealize.ShloMosaic.Lib.Pipeline.Value

set_option maxRecDepth 16384

noncomputable section

namespace Cert.Proof.KBody

open Idealize.ShloMosaic Idealize.ShloMosaic.TcCoe Idealize.ShloMosaic.Tactic
open Idealize.SL Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The tile of zeros the first chunk of a core stores. -/
abbrev zeroTile : Vec F S1x1x128 .f32 := k0_pay2 (F := F)

/-- The output tile after the body, from the input tiles `xs`, `xt`, `fuv`, `fvu` and the tile's contents `prev` when
    the body reads it: the body's last store, its operands the body's earlier values. -/
def tileAfter (x0 x1 : Vec F S800x64 .f32) (x2 x3 : Vec F S800x16 .f32) (prev : Vec F S1x1x128 .f32) : Vec F S1x1x128 .f32 :=
  k0_pay1 (k0_pay3 x0) (k0_pay4 x1) (k0_pay5 x2) (k0_pay6 x3)
    (k0_pay12 (k0_pay7 x0 x1 x2 x3) (k0_pay8 x3) (k0_pay9 x2) (k0_pay10 x1) (k0_pay11 x0))
    (k0_pay13 (k0_pay3 x0) (k0_pay4 x1) (k0_pay5 x2) (k0_pay6 x3))
    (k0_pay15 (k0_pay3 x0) (k0_pay4 x1) (k0_pay5 x2) (k0_pay6 x3) (k0_pay14 (k0_pay3 x0) (k0_pay4 x1) (k0_pay5 x2) (k0_pay6 x3)))
    (k0_pay16 (k0_pay3 x0))
    (k0_pay17 (k0_pay3 x0) (k0_pay4 x1) (k0_pay5 x2) (k0_pay6 x3))
    (k0_pay18 (k0_pay5 x2))
    prev

/-- A later chunk of a core: the tile holds `prev`, and the body's one store covers it. -/
theorem tile_next (c : Dev nD) (i : grid0.Coords) (a2 : Memref sig .tc .vmem S800x64 .f32) (h2 : a2.IsWhole)
    (a3 : Memref sig .tc .vmem S800x64 .f32) (h3 : a3.IsWhole) (a4 : Memref sig .tc .vmem S800x16 .f32) (h4 : a4.IsWhole)
    (a5 : Memref sig .tc .vmem S800x16 .f32) (h5 : a5.IsWhole) (a6 : Memref sig .tc .vmem S1x1x128 .f32) (h6 : a6.IsWhole)
    (hc : ¬cond0_0 i) (x0 x1 : Vec F S800x64 .f32) (x2 x3 : Vec F S800x16 .f32) (prev : Vec F S1x1x128 .f32) :
    out0_B_4 c i a2 h2 a3 h3 a4 h4 a5 h5 a6 h6 hc x0 x1 x2 x3 prev = tileAfter x0 x1 x2 x3 prev := by
  unfold out0_B_4
  rw [View.read_writes_eq_canon _ _ _ (cover0_B_4 c i a2 h2 a3 h3 a4 h4 a5 h5 a6 h6 hc x0 x1 x2 x3 prev)]
  unfold kernelRun0_B
  dsimp only
  sl_unfold_words
  rw [View.canon_unit_zero hz3]
  unfold tileAfter
  simp only [View.readAt_eq_ld, h2.read_unread, h3.read_unread, h4.read_unread, h5.read_unread, h6.read_unread,
    View.ld_unit_zero (S := S800x64) hz2, View.ld_unit_zero (S := S800x16) hz2, View.ld_unit_zero (S := S1x1x128) hz3]

/-- The first chunk of a core: the body stores the tile of zeros, reads it back, and its last store covers the tile. -/
theorem tile_first (c : Dev nD) (i : grid0.Coords) (a2 : Memref sig .tc .vmem S800x64 .f32) (h2 : a2.IsWhole)
    (a3 : Memref sig .tc .vmem S800x64 .f32) (h3 : a3.IsWhole) (a4 : Memref sig .tc .vmem S800x16 .f32) (h4 : a4.IsWhole)
    (a5 : Memref sig .tc .vmem S800x16 .f32) (h5 : a5.IsWhole) (a6 : Memref sig .tc .vmem S1x1x128 .f32) (h6 : a6.IsWhole)
    (hc : cond0_0 i) (x0 x1 : Vec F S800x64 .f32) (x2 x3 : Vec F S800x16 .f32) :
    out0_A_4 c i a2 h2 a3 h3 a4 h4 a5 h5 a6 h6 hc x0 x1 x2 x3 = tileAfter x0 x1 x2 x3 zeroTile := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1x128) hz3, View.readCov_unit_zero (S := S1x1x128) _ hz3]
  unfold tileAfter
  simp only [View.readAt_eq_ld, h2.read_unread, h3.read_unread, h4.read_unread, h5.read_unread,
    View.ld_unit_zero (S := S800x64) hz2, View.ld_unit_zero (S := S800x16) hz2, View.ld_unit_zero (S := S1x1x128) hz3]

end Cert.Proof.KBody

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Spec.lean ====
/-
  The mathematics of the certificate, stated once, over index-level descriptions of the arrays.

  For every directed edge `e` the program forms the 4 × 16 matrix
      diff e = Fvu e · x[tgt e] − Fuv e · x[src e]        (Fuv e = maps e, Fvu e = maps (rev e), 4 × 4; x rows 4 × 16)
  and returns the sum of the squares of all entries of all these matrices. The kernel streams four edge-major
  arrays, each a re-laid copy of a gathered argument: `xs`, `xt` of width 64 (entry `16·j + f` of row `e` is
  `x[src e] j f`, resp. `x[tgt e] j f`) and `fuv`, `fvu` of width 16 (entry `4·i + j` is `Fuv e i j`, resp. `Fvu e i j`).

  * `rowK`: entry `(i, f)` of `diff e` as the kernel accumulates it, one product added and one subtracted per `j`,
    from zero;
  * `rowR`: the same entry as the reference computes it, a difference of two sums over `j`;
  * `kernelTotal`: the kernel's result, chunk by chunk (800 edges a chunk, 1000 chunks a core, 2 cores);
  * `refTotal`: the reference's result, one sum over all `(e, i, f)`.
-/
import Idealize.ShloMosaic.PureOps.Ideal
import Idealize.ShloMosaic.Lib.ValueIdx
import proofs.«431077_j49340584296528_4_alg».proof.Proof.LibGatherScatter

open scoped BigOperators

noncomputable section

namespace Cert.Proof.Spec

open Idealize.ShloMosaic Idealize.ShloMosaic.ValueIdx

/-- Column `4·i + j` of a width-16 row: entry `(i, j)` of a 4 × 4 matrix laid out row-major. -/
abbrev c4 (i j : Fin 4) : Fin 16 := ⟨4 * i.val + j.val, by omega⟩
/-- Column `16·j + f` of a width-64 row: entry `(j, f)` of a 4 × 16 matrix laid out row-major. -/
abbrev c16 (j : Fin 4) (f : Fin 16) : Fin 64 := ⟨16 * j.val + f.val, by omega⟩

/-- Coordinate bounds of a rank-3 index, with the extents spelled out. -/
theorem idx3_lt1 {a b c : Nat} (i : (⟨3, ![a, b, c]⟩ : Shape).Idx) : (i 1).val < b := (i 1).isLt
theorem idx3_lt2 {a b c : Nat} (i : (⟨3, ![a, b, c]⟩ : Shape).Idx) : (i 2).val < c := (i 2).isLt

/-- The square. -/
abbrev sq (a : EReal) : EReal := a * a

section Rows
variable {R : Nat}

/-- Entry `(i, f)` of edge `r`'s difference matrix in the kernel's order of accumulation: from zero, for
    `j = 0, 1, 2, 3` add `fvu (i, j) · xt (j, f)` and then subtract `fuv (i, j) · xs (j, f)`. -/
def rowK (xs xt : (⟨2, ![R, 64]⟩ : Shape).Idx → EReal) (fuv fvu : (⟨2, ![R, 16]⟩ : Shape).Idx → EReal)
    (r : Fin R) (i : Fin 4) (f : Fin 16) : EReal :=
  (((((((0 + fvu (ix2 r (c4 i 0)) * xt (ix2 r (c16 0 f))) - fuv (ix2 r (c4 i 0)) * xs (ix2 r (c16 0 f)))
    + fvu (ix2 r (c4 i 1)) * xt (ix2 r (c16 1 f))) - fuv (ix2 r (c4 i 1)) * xs (ix2 r (c16 1 f)))
    + fvu (ix2 r (c4 i 2)) * xt (ix2 r (c16 2 f))) - fuv (ix2 r (c4 i 2)) * xs (ix2 r (c16 2 f)))
    + fvu (ix2 r (c4 i 3)) * xt (ix2 r (c16 3 f))) - fuv (ix2 r (c4 i 3)) * xs (ix2 r (c16 3 f))

/-- The same entry in the reference's order: the matrix product with `fvu` minus the matrix product with `fuv`. -/
def rowR (xs xt : (⟨2, ![R, 64]⟩ : Shape).Idx → EReal) (fuv fvu : (⟨2, ![R, 16]⟩ : Shape).Idx → EReal)
    (r : Fin R) (i : Fin 4) (f : Fin 16) : EReal :=
  (∑ k : Fin 4, fvu (ix2 r (c4 i k)) * xt (ix2 r (c16 k f))) - ∑ k : Fin 4, fuv (ix2 r (c4 i k)) * xs (ix2 r (c16 k f))

/-- `rowK` reads row `r` of its four arrays only. -/
theorem rowK_congr {R' : Nat} (xs xt : (⟨2, ![R, 64]⟩ : Shape).Idx → EReal) (fuv fvu : (⟨2, ![R, 16]⟩ : Shape).Idx → EReal)
    (xs' xt' : (⟨2, ![R', 64]⟩ : Shape).Idx → EReal) (fuv' fvu' : (⟨2, ![R', 16]⟩ : Shape).Idx → EReal)
    (r : Fin R) (r' : Fin R')
    (hxs : ∀ q, xs (ix2 r q) = xs' (ix2 r' q)) (hxt : ∀ q, xt (ix2 r q) = xt' (ix2 r' q))
    (hfuv : ∀ q, fuv (ix2 r q) = fuv' (ix2 r' q)) (hfvu : ∀ q, fvu (ix2 r q) = fvu' (ix2 r' q)) (i : Fin 4) (f : Fin 16) :
    rowK xs xt fuv fvu r i f = rowK xs' xt' fuv' fvu' r' i f := by
  unfold rowK
  simp only [hxs, hxt, hfuv, hfvu]

end Rows

/-- The kernel's sum over ONE chunk of 800 edge rows held as blocks: over every `(0, r, l)` of the chunk's
    [1, 800, 64] tile, the square of entry `(l / 16, l % 16)` of row `r`'s difference matrix. -/
def chunk (xs xt : (⟨2, ![800, 64]⟩ : Shape).Idx → EReal) (fuv fvu : (⟨2, ![800, 16]⟩ : Shape).Idx → EReal) : EReal :=
  ∑ i : (⟨3, ![1, 800, 64]⟩ : Shape).Idx,
    sq (rowK xs xt fuv fvu (i 1) ⟨(i 2).val / 16, by have := idx3_lt2 i; omega⟩ ⟨(i 2).val % 16, Nat.mod_lt _ (by decide)⟩)

section Whole
variable (XS XT : (⟨2, ![1600000, 64]⟩ : Shape).Idx → EReal) (FUV FVU : (⟨2, ![1600000, 16]⟩ : Shape).Idx → EReal)

/-- Chunk `t` of the whole arrays: edges `800·t … 800·t + 799`. -/
def chunkAt (t : Fin 2000) : EReal :=
  ∑ i : (⟨3, ![1, 800, 64]⟩ : Shape).Idx,
    sq (rowK XS XT FUV FVU ⟨800 * t.val + (i 1).val, by have := t.isLt; have := idx3_lt1 i; omega⟩
      ⟨(i 2).val / 16, by have := idx3_lt2 i; omega⟩ ⟨(i 2).val % 16, Nat.mod_lt _ (by decide)⟩)

/-- Chunk `n`'s sum as a function of every natural number (zero past the grid). -/
def addend (n : Nat) : EReal := if h : n < 2000 then chunkAt XS XT FUV FVU ⟨n, h⟩ else 0

/-- What core `p` accumulates: from zero, its 1000 chunks. -/
def coreSum (p : Nat) : EReal := 0 + ∑ s ∈ Finset.range 1000, addend XS XT FUV FVU (1000 * p + s)

/-- The kernel's result: from zero, the two cores' sums. -/
def kernelTotal : EReal := 0 + ∑ p : (⟨1, ![2]⟩ : Shape).Idx, coreSum XS XT FUV FVU (p 0).val

/-- The reference's result: from zero, the squares of all entries of all edges' difference matrices. -/
def refTotal : EReal :=
  0 + ∑ J : (⟨3, ![1600000, 4, 16]⟩ : Shape).Idx, sq (rowR XS XT FUV FVU (J 0) (J 1) (J 2))

end Whole

/-! ## The four streamed arrays, entry by entry -/

/-- jnp's index normalisation of one index word against an axis of extent `N`: a negative word has `N` added. -/
def nrm (N w : BitVec 32) : BitVec 32 := Scalar.select (IntOp.cmpi .slt w 0#32) (IntOp.addi w N) w

/-- The node a gather reads for edge `e` from row `k` of the edge list (`k = 0`: sources, `k = 1`: targets): the
    normalised word, read signed and clamped into the node range. -/
def nodeOf (ei : IVec ⟨2, ![2, 1600000]⟩ 32) (k : Fin 2) (e : Fin 1600000) : Fin 50000 :=
  GS.row (N := 50000) (by decide) (nrm 50000#32 (ei (ix2 k e)))

/-- The edge whose maps a gather reads as edge `e`'s reverse. -/
def revOf (rv : IVec ⟨1, ![1600000]⟩ 32) (e : Fin 1600000) : Fin 1600000 :=
  GS.row (N := 1600000) (by decide) (nrm 1600000#32 (rv (ix1 e)))

/-- Row `e` of the gathered, flattened features: `x[node k e]` laid out `16·j + f`. -/
def xRows (x : (⟨3, ![50000, 4, 16]⟩ : Shape).Idx → EReal) (ei : IVec ⟨2, ![2, 1600000]⟩ 32) (k : Fin 2) :
    (⟨2, ![1600000, 64]⟩ : Shape).Idx → EReal :=
  fun q => x (ix3 (nodeOf ei k (q 0)) ⟨(q 1).val / 16, by have := idx2_lt1 q; omega⟩ ⟨(q 1).val % 16, Nat.mod_lt _ (by decide)⟩)

/-- Row `e` of the flattened maps: `maps e` laid out `4·i + j`. -/
def mapRows (mp : (⟨3, ![1600000, 4, 4]⟩ : Shape).Idx → EReal) : (⟨2, ![1600000, 16]⟩ : Shape).Idx → EReal :=
  fun q => mp (ix3 (q 0) ⟨(q 1).val / 4, by have := idx2_lt1 q; omega⟩ ⟨(q 1).val % 4, Nat.mod_lt _ (by decide)⟩)

/-- Row `e` of the flattened reverse maps: `maps (rev e)` laid out `4·i + j`. -/
def revMapRows (mp : (⟨3, ![1600000, 4, 4]⟩ : Shape).Idx → EReal) (rv : IVec ⟨1, ![1600000]⟩ 32) :
    (⟨2, ![1600000, 16]⟩ : Shape).Idx → EReal :=
  fun q => mp (ix3 (revOf rv (q 0)) ⟨(q 1).val / 4, by have := idx2_lt1 q; omega⟩ ⟨(q 1).val % 4, Nat.mod_lt _ (by decide)⟩)

/-- The kernel's result as a function of the four arguments. -/
def kernelResult (x : (⟨3, ![50000, 4, 16]⟩ : Shape).Idx → EReal) (mp : (⟨3, ![1600000, 4, 4]⟩ : Shape).Idx → EReal)
    (ei : IVec ⟨2, ![2, 1600000]⟩ 32) (rv : IVec ⟨1, ![1600000]⟩ 32) : EReal :=
  kernelTotal (xRows x ei 0) (xRows x ei 1) (mapRows mp) (revMapRows mp rv)

/-- The reference's result as a function of the four arguments. -/
def refResult (x : (⟨3, ![50000, 4, 16]⟩ : Shape).Idx → EReal) (mp : (⟨3, ![1600000, 4, 4]⟩ : Shape).Idx → EReal)
    (ei : IVec ⟨2, ![2, 1600000]⟩ 32) (rv : IVec ⟨1, ![1600000]⟩ 32) : EReal :=
  refTotal (xRows x ei 0) (xRows x ei 1) (mapRows mp) (revMapRows mp rv)

end Cert.Proof.Spec

end
-- ==== Proof.TileIdeal.lean ====
/-
  The output tile after one run of the body, at the ideal instance, lane by lane.

  The body forms the [800, 64] tile of differences — lanes `16·i … 16·i + 15` of row `r` hold row `i` of edge `r`'s
  difference matrix, each entry accumulated as `Spec.rowK` says —, squares it, sums all of it (`Spec.chunk`),
  multiplies the sum by the lane mask and adds that to the tile it read:
      tileAfter … prev at lane  =  prev at lane + chunk · [lane = 0].
-/
import proofs.«431077_j49340584296528_4_alg».proof.Proof.Body
import proofs.«431077_j49340584296528_4_alg».proof.Proof.Spec
import Idealize.ShloMosaic.PureOps.Ideal.Laws

set_option maxRecDepth 16384

open scoped BigOperators

noncomputable section

namespace Cert.Proof.KTile

open Idealize.ShloMosaic Idealize.ShloMosaic.ValueIdx
open Cert.KernelIdeal Cert.KernelIdeal.Gen Cert.Proof.KBody Cert.Proof.Spec

/-- Column `c` of a width-16 tile, broadcast along the lanes, read at `(r, f)`: the tile at `(r, c)`. -/
theorem col_apply (x : Vec Ideal S800x16 .f32) (c : Nat) (hs : S800x16.Slices ![0, c] S800x1)
    (hsc : S800x16.ShapeCasts S800x16) (hb : S800x1.Broadcasts S800x16) (r : Fin 800) (f : Fin 16) :
    broadcastTo S800x16 (extractStridedSlice S800x1 ![0, c] (shapeCast S800x16 x hsc) hs) hb (ix2 r f)
      = x (ix2 r ⟨c, by have h : c + 1 ≤ 16 := hs.2 1; omega⟩) := by
  rw [shapeCast_self]
  rw [broadcastTo_apply _ hb (ix2 r f) (ix2 r (0 : Fin 1)) (fun a => by
    match a with
    | ⟨0, _⟩ => show r.val = if (800 : Nat) = 1 then 0 else r.val; rw [if_neg (by decide)]
    | ⟨1, _⟩ => show (0 : Nat) = if (1 : Nat) = 1 then 0 else _; rw [if_pos rfl])]
  exact extractStridedSlice_apply _ x hs _ _ (fun a => by
    match a with
    | ⟨0, _⟩ => show r.val = 0 + r.val; omega
    | ⟨1, _⟩ => show c = c + 0; omega)

/-- Lanes `o … o + 15` of a width-64 tile read at `(r, f)`: the tile at `(r, o + f)`. -/
theorem blk_apply (x : Vec Ideal S800x64 .f32) (o : Nat) (hs : S800x64.Slices ![0, o] S800x16)
    (hsc : S800x64.ShapeCasts S800x64) (r : Fin 800) (f : Fin 16) :
    extractStridedSlice S800x16 ![0, o] (shapeCast S800x64 x hsc) hs (ix2 r f)
      = x (ix2 r ⟨o + f.val, by have h : o + 16 ≤ 64 := hs.2 1; have := f.isLt; omega⟩) := by
  rw [shapeCast_self]
  exact extractStridedSlice_apply _ x hs _ _ (fun a => by
    match a with
    | ⟨0, _⟩ => show r.val = 0 + r.val; omega
    | ⟨1, _⟩ => rfl)

/-- The float zero the accumulators start from is the extended real 0. -/
theorem zero_word : (Scalar.ofBits .f32 0x00000000#32 : Ideal .f32) = (0 : EReal) := Ideal.ofBits_zero_f32

variable (x0 x1 : Vec Ideal S800x64 .f32) (x2 x3 : Vec Ideal S800x16 .f32)

/-- Lanes 0 … 15 of the difference tile: row `i = 0` of every edge's difference matrix. -/
theorem piece0 (r : Fin 800) (f : Fin 16) :
    k0_pay12 (k0_pay7 x0 x1 x2 x3) (k0_pay8 x3) (k0_pay9 x2) (k0_pay10 x1) (k0_pay11 x0) (ix2 r f)
      = rowK x0 x1 x2 x3 r 0 f := by
  unfold k0_pay12 k0_pay7 k0_pay8 k0_pay9 k0_pay10 k0_pay11 k0_pay3 k0_pay4 k0_pay5 k0_pay6
  simp only [subf_apply, addf_apply, mulf_apply, broadcast_apply, zero_word]
  rw [col_apply x3 0, col_apply x2 0, col_apply x3 1, col_apply x2 1, col_apply x3 2, col_apply x2 2,
    col_apply x3 3, col_apply x2 3, blk_apply x1 0, blk_apply x0 0, blk_apply x1 16, blk_apply x0 16,
    blk_apply x1 32, blk_apply x0 32, blk_apply x1 48, blk_apply x0 48]
  rfl

/-- Lanes 16 … 31: row `i = 1`. -/
theorem piece1 (r : Fin 800) (f : Fin 16) :
    k0_pay13 (k0_pay3 x0) (k0_pay4 x1) (k0_pay5 x2) (k0_pay6 x3) (ix2 r f) = rowK x0 x1 x2 x3 r 1 f := by
  unfold k0_pay13 k0_pay3 k0_pay4 k0_pay5 k0_pay6
  simp only [subf_apply, addf_apply, mulf_apply, broadcast_apply, zero_word]
  rw [col_apply x3 4, col_apply x2 4, col_apply x3 5, col_apply x2 5, col_apply x3 6, col_apply x2 6,
    col_apply x3 7, col_apply x2 7, blk_apply x1 0, blk_apply x0 0, blk_apply x1 16, blk_apply x0 16,
    blk_apply x1 32, blk_apply x0 32, blk_apply x1 48, blk_apply x0 48]
  rfl

/-- Lanes 32 … 47: row `i = 2`. -/
theorem piece2 (r : Fin 800) (f : Fin 16) :
    k0_pay15 (k0_pay3 x0) (k0_pay4 x1) (k0_pay5 x2) (k0_pay6 x3)
        (k0_pay14 (k0_pay3 x0) (k0_pay4 x1) (k0_pay5 x2) (k0_pay6 x3)) (ix2 r f)
      = rowK x0 x1 x2 x3 r 2 f := by
  unfold k0_pay15 k0_pay14 k0_pay3 k0_pay4 k0_pay5 k0_pay6
  simp only [subf_apply, addf_apply, mulf_apply, broadcast_apply, zero_word]
  rw [col_apply x3 8, col_apply x2 8, col_apply x3 9, col_apply x2 9, col_apply x3 10, col_apply x2 10,
    col_apply x3 11, col_apply x2 11, blk_apply x1 0, blk_apply x0 0, blk_apply x1 16, blk_apply x0 16,
    blk_apply x1 32, blk_apply x0 32, blk_apply x1 48, blk_apply x0 48]
  rfl

/-- Lanes 48 … 63: row `i = 3`, whose last product pair the body forms after the third piece. -/
theorem piece3 (r : Fin 800) (f : Fin 16) :
    subf (addf (subf (k0_pay17 (k0_pay3 x0) (k0_pay4 x1) (k0_pay5 x2) (k0_pay6 x3))
            (mulf (k0_pay18 (k0_pay5 x2)) (k0_pay16 (k0_pay3 x0))))
          (mulf (broadcastTo S800x16 (extractStridedSlice S800x1 ![0, 15] (k0_pay6 x3) slices_S800x16_o0_15_S800x1) broadcasts_S800x1_S800x16)
            (extractStridedSlice S800x16 ![0, 48] (k0_pay4 x1) slices_S800x64_o0_48_S800x16)))
        (mulf (broadcastTo S800x16 (extractStridedSlice S800x1 ![0, 15] (k0_pay5 x2) slices_S800x16_o0_15_S800x1) broadcasts_S800x1_S800x16)
          (extractStridedSlice S800x16 ![0, 48] (k0_pay3 x0) slices_S800x64_o0_48_S800x16)) (ix2 r f)
      = rowK x0 x1 x2 x3 r 3 f := by
  unfold k0_pay17 k0_pay18 k0_pay16 k0_pay3 k0_pay4 k0_pay5 k0_pay6
  simp only [subf_apply, addf_apply, mulf_apply, broadcast_apply, zero_word]
  rw [col_apply x3 12, col_apply x2 12, col_apply x3 13, col_apply x2 13, col_apply x3 14, col_apply x2 14,
    col_apply x3 15, col_apply x2 15, blk_apply x1 0, blk_apply x0 0, blk_apply x1 16, blk_apply x0 16,
    blk_apply x1 32, blk_apply x0 32, blk_apply x1 48, blk_apply x0 48]
  rfl

/-- The four 16-lane pieces of the tile of differences, in lane order. -/
abbrev pieces : List ((s : Shape) × (s.Idx → Ideal .f32)) :=
    [⟨S800x16, k0_pay12 (k0_pay7 x0 x1 x2 x3) (k0_pay8 x3) (k0_pay9 x2) (k0_pay10 x1) (k0_pay11 x0)⟩,
     ⟨S800x16, k0_pay13 (k0_pay3 x0) (k0_pay4 x1) (k0_pay5 x2) (k0_pay6 x3)⟩,
     ⟨S800x16, k0_pay15 (k0_pay3 x0) (k0_pay4 x1) (k0_pay5 x2) (k0_pay6 x3) (k0_pay14 (k0_pay3 x0) (k0_pay4 x1) (k0_pay5 x2) (k0_pay6 x3))⟩,
     ⟨S800x16, subf (addf (subf (k0_pay17 (k0_pay3 x0) (k0_pay4 x1) (k0_pay5 x2) (k0_pay6 x3))
            (mulf (k0_pay18 (k0_pay5 x2)) (k0_pay16 (k0_pay3 x0))))
          (mulf (broadcastTo S800x16 (extractStridedSlice S800x1 ![0, 15] (k0_pay6 x3) slices_S800x16_o0_15_S800x1) broadcasts_S800x1_S800x16)
            (extractStridedSlice S800x16 ![0, 48] (k0_pay4 x1) slices_S800x64_o0_48_S800x16)))
        (mulf (broadcastTo S800x16 (extractStridedSlice S800x1 ![0, 15] (k0_pay5 x2) slices_S800x16_o0_15_S800x1) broadcasts_S800x1_S800x16)
          (extractStridedSlice S800x16 ![0, 48] (k0_pay3 x0) slices_S800x64_o0_48_S800x16))⟩]

/-- The tile of differences: the four pieces side by side along the lanes. -/
abbrev diffTile : FVec Ideal S800x64 .f32 :=
  concatenate S800x64 1 (pieces x0 x1 x2 x3) concatenates_S800x16_S800x16_S800x16_S800x16_S800x64_d1

/-- The difference tile at row `r`, lane `l`: entry `(l / 16, l % 16)` of edge `r`'s difference matrix. -/
theorem diff_apply (r : Fin 800) (l : Fin 64) :
    diffTile x0 x1 x2 x3 (ix2 r l)
      = rowK x0 x1 x2 x3 r ⟨l.val / 16, by have := l.isLt; omega⟩ ⟨l.val % 16, Nat.mod_lt _ (by decide)⟩ := by
  have hl := l.isLt
  have hi : ∀ b : Fin S800x16.rank, b.cast (rfl : S800x16.rank = S800x64.rank) ≠ (1 : Fin 2) →
      ((ix2 r (⟨l.val % 16, Nat.mod_lt _ (by decide)⟩ : Fin 16) : S800x16.Idx) b).val = ((ix2 r l : S800x64.Idx) (b.cast rfl)).val := by
    intro b hb
    match b with
    | ⟨0, _⟩ => rfl
    | ⟨1, _⟩ => exact absurd rfl hb
  have hk : l.val / 16 = 0 ∨ l.val / 16 = 1 ∨ l.val / 16 = 2 ∨ l.val / 16 = 3 := by omega
  rcases hk with hk | hk | hk | hk
  · rw [show (⟨l.val / 16, by omega⟩ : Fin 4) = 0 from Fin.ext hk, ← piece0]
    exact concatenate_apply_piece (t := S800x64) (1 : Fin 2) (pieces x0 x1 x2 x3) concatenates_S800x16_S800x16_S800x16_S800x16_S800x64_d1 (ix2 r l) 0
      (show 0 < 4 by decide) S800x16 _ rfl rfl 0 rfl _ hi (by show 0 + l.val % 16 = l.val; omega)
  · rw [show (⟨l.val / 16, by omega⟩ : Fin 4) = 1 from Fin.ext hk, ← piece1]
    exact concatenate_apply_piece (t := S800x64) (1 : Fin 2) (pieces x0 x1 x2 x3) concatenates_S800x16_S800x16_S800x16_S800x16_S800x64_d1 (ix2 r l) 1
      (show 1 < 4 by decide) S800x16 _ rfl rfl 16 rfl _ hi (by show 16 + l.val % 16 = l.val; omega)
  · rw [show (⟨l.val / 16, by omega⟩ : Fin 4) = 2 from Fin.ext hk, ← piece2]
    exact concatenate_apply_piece (t := S800x64) (1 : Fin 2) (pieces x0 x1 x2 x3) concatenates_S800x16_S800x16_S800x16_S800x16_S800x64_d1 (ix2 r l) 2
      (show 2 < 4 by decide) S800x16 _ rfl rfl 32 rfl _ hi (by show 32 + l.val % 16 = l.val; omega)
  · rw [show (⟨l.val / 16, by omega⟩ : Fin 4) = 3 from Fin.ext hk, ← piece3]
    exact concatenate_apply_piece (t := S800x64) (1 : Fin 2) (pieces x0 x1 x2 x3) concatenates_S800x16_S800x16_S800x16_S800x16_S800x64_d1 (ix2 r l) 3
      (show 3 < 4 by decide) S800x16 _ rfl rfl 48 rfl _ hi (by show 48 + l.val % 16 = l.val; omega)

/-- The output tile after the body at a lane: what the tile held there plus the chunk's sum of squares on lane 0. -/
theorem tile_lane (prev : Vec Ideal S1x1x128 .f32) (lane : Fin 128) :
    tileAfter x0 x1 x2 x3 prev (ix3 0 0 lane)
      = prev (ix3 0 0 lane) + chunk x0 x1 x2 x3 * (if lane.val = 0 then 1 else 0) := by
  unfold tileAfter k0_pay1
  dsimp only
  rw [addf_apply, mulf_apply, broadcast_apply, shapeCast_self]
  congr 1
  congr 1
  · -- the scalar the body broadcasts is the chunk's sum of squares
    unfold extractAt
    rw [shapeCast_apply _ shapeCasts_S1_S1x1x1 _ (ix1 (0 : Fin 1))
      (by rw [Shape.rowMajor_val_one, Shape.rowMajor_val_three]; rfl)]
    refine (Ideal.multiReduction_add_total (φ := .f32) _ 0x00000000#32 reduces_S1x800x64_S1
      (fun b => by match b with | ⟨0, _⟩ => rfl) _ _ (ix1 (0 : Fin 1))).trans ?_
    unfold chunk
    refine Finset.sum_congr rfl fun i _ => ?_
    rw [shapeCast_addUnit_apply]
    have hi : (fun a : Fin 2 => i a.succ) = (ix2 (i 1) (i 2) : S800x64.Idx) :=
      funext fun a => by match a with | ⟨0, _⟩ => rfl | ⟨1, _⟩ => rfl
    rw [hi]
    exact congrArg (fun a : EReal => a * a) (diff_apply x0 x1 x2 x3 (i 1) (i 2))
  · -- the lane mask: one on lane 0, zero elsewhere
    rw [sitofp_apply, extui_apply]
    show FloatOps.sitofp (F := Ideal) .f32
      ((IntOp.cmpi .eq (iota .tc S1x1x128 32 [2] iota_S1x1x128_d2_w32 (ix3 0 0 lane)) 0#32).setWidth 32) = _
    rw [iota_single_apply]
    show (((((IntOp.cmpi .eq (BitVec.ofNat 32 lane.val) 0#32).setWidth 32).toInt : ℝ)) : EReal) = _
    have key : ∀ n : Fin 128, ((IntOp.cmpi .eq (BitVec.ofNat 32 n.val) 0#32).setWidth 32).toInt = if n.val = 0 then 1 else 0 := by
      decide
    rw [key lane]
    split <;> simp

end Cert.Proof.KTile

end
-- ==== Proof.Blocks.lean ====
/-
  The four input tiles of a chunk are rows of the four streamed arrays.

  Chunk `t` (the grid's point `t`, cores major) reads, through each of its four input windows, block row `t` of the
  window's edge-major array: tile entry `(r, q)` is array entry `(800·t + r, q)`.
-/
import proofs.«431077_j49340584296528_4_alg».proof.Proof.Gen.KernelIdeal.Frame
import Idealize.ShloMosaic.Lib.ValueIdx

set_option maxRecDepth 16384

noncomputable section

namespace Cert.Proof.KBlocks

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- Every input window's block at chunk `t` is block row `t`, block column 0 of its array. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The number of chunks. -/
theorem chunks : cfg0.N = 2000 := N_0

/-- Row `800·t + r` is a row of the edge-major arrays. -/
theorem row_lt (t : Fin cfg0.N) (r : Fin 800) : 800 * t.val + r.val < 1600000 := by
  have := t.isLt; have h : cfg0.N = 2000 := N_0; have := r.isLt; omega

/-- The four input tiles at chunk `t`, and the four arrays they are cut from, at their literal types. -/
abbrev blk0 (c : Dev nD) (t : Fin cfg0.N) : Vec F S800x64 .f32 := iblk m c 0 t
abbrev blk1 (c : Dev nD) (t : Fin cfg0.N) : Vec F S800x64 .f32 := iblk m c 1 t
abbrev blk2 (c : Dev nD) (t : Fin cfg0.N) : Vec F S800x16 .f32 := iblk m c 2 t
abbrev blk3 (c : Dev nD) (t : Fin cfg0.N) : Vec F S800x16 .f32 := iblk m c 3 t
abbrev arr0 (c : Dev nD) : Vec F S1600000x64 .f32 := V m c main_v20
abbrev arr1 (c : Dev nD) : Vec F S1600000x64 .f32 := V m c main_v27
abbrev arr2 (c : Dev nD) : Vec F S1600000x16 .f32 := V m c main_v5
abbrev arr3 (c : Dev nD) : Vec F S1600000x16 .f32 := V m c main_v13

theorem blk0_apply (c : Dev nD) (t : Fin cfg0.N) (r : Fin 800) (q : Fin 64) :
    blk0 m c t (ix2 r q) = arr0 m c (ix2 ⟨800 * t.val + r.val, row_lt t r⟩ q) := by
  show V m c main_v20 (((cfg0.win 0).blk t).view.emb (ix2 r q)) = _
  refine congrArg _ (funext fun a => Fin.ext ?_)
  match a with
  | ⟨0, _⟩ =>
    show win0_0.index t 0 * 800 + 1 * r.val = 800 * t.val + r.val
    rw [(index0 t).1]; omega
  | ⟨1, _⟩ =>
    show win0_0.index t 1 * 64 + 1 * q.val = q.val
    rw [(index0 t).2]; omega

theorem blk1_apply (c : Dev nD) (t : Fin cfg0.N) (r : Fin 800) (q : Fin 64) :
    blk1 m c t (ix2 r q) = arr1 m c (ix2 ⟨800 * t.val + r.val, row_lt t r⟩ q) := by
  show V m c main_v27 (((cfg0.win 1).blk t).view.emb (ix2 r q)) = _
  refine congrArg _ (funext fun a => Fin.ext ?_)
  match a with
  | ⟨0, _⟩ =>
    show win0_1.index t 0 * 800 + 1 * r.val = 800 * t.val + r.val
    rw [(index1 t).1]; omega
  | ⟨1, _⟩ =>
    show win0_1.index t 1 * 64 + 1 * q.val = q.val
    rw [(index1 t).2]; omega

theorem blk2_apply (c : Dev nD) (t : Fin cfg0.N) (r : Fin 800) (q : Fin 16) :
    blk2 m c t (ix2 r q) = arr2 m c (ix2 ⟨800 * t.val + r.val, row_lt t r⟩ q) := by
  show V m c main_v5 (((cfg0.win 2).blk t).view.emb (ix2 r q)) = _
  refine congrArg _ (funext fun a => Fin.ext ?_)
  match a with
  | ⟨0, _⟩ =>
    show win0_2.index t 0 * 800 + 1 * r.val = 800 * t.val + r.val
    rw [(index2 t).1]; omega
  | ⟨1, _⟩ =>
    show win0_2.index t 1 * 16 + 1 * q.val = q.val
    rw [(index2 t).2]; omega

theorem blk3_apply (c : Dev nD) (t : Fin cfg0.N) (r : Fin 800) (q : Fin 16) :
    blk3 m c t (ix2 r q) = arr3 m c (ix2 ⟨800 * t.val + r.val, row_lt t r⟩ q) := by
  show V m c main_v13 (((cfg0.win 3).blk t).view.emb (ix2 r q)) = _
  refine congrArg _ (funext fun a => Fin.ext ?_)
  match a with
  | ⟨0, _⟩ =>
    show win0_3.index t 0 * 800 + 1 * r.val = 800 * t.val + r.val
    rw [(index3 t).1]; omega
  | ⟨1, _⟩ =>
    show win0_3.index t 1 * 16 + 1 * q.val = q.val
    rw [(index3 t).2]; omega

end Cert.Proof.KBlocks

end
-- ==== Proof.Accum.lean ====
/-
  The output tile after every chunk: the running sum of the core's chunk sums, on lane 0.

  The tile is reset at the first chunk of a core (the chunks whose number is a multiple of 1000) and added into at every
  later one. So after chunk `t`, at every index `i` of the [1, 1, 128] tile it holds
      0 + Σ_{s ≤ t % 1000} addend (1000·(t / 1000) + s) · [lane i = 0],
  where `addend n` is the sum of squares of chunk `n` of the four streamed arrays.
-/
import proofs.«431077_j49340584296528_4_alg».proof.Proof.TileIdeal
import proofs.«431077_j49340584296528_4_alg».proof.Proof.Blocks
import Idealize.ShloMosaic.Lib.Pipeline.Value

set_option maxRecDepth 16384

open scoped BigOperators

noncomputable section

namespace Cert.Proof.KAccum

open Idealize.ShloMosaic Idealize.ShloMosaic.TcCoe Idealize.ShloMosaic.ValueIdx
open Idealize.SL Idealize.SL.Sem
open Cert.KernelIdeal Cert.KernelIdeal.Gen Cert.Proof.KBody Cert.Proof.KTile Cert.Proof.KBlocks Cert.Proof.Spec

variable (m : (ℓ : Loc nD τ sig) → Buf (Elt Ideal) ℓ)

/-- The lane mask at an index of the tile: one on lane 0, zero elsewhere. -/
abbrev mask (i : S1x1x128.Idx) : EReal := if (i 2).val = 0 then 1 else 0

/-- An index of the [1, 1, 128] tile is its lane. -/
theorem idx_eq (i : S1x1x128.Idx) : i = ix3 (0 : Fin 1) (0 : Fin 1) (i 2) := by
  funext a
  match a with
  | ⟨0, _⟩ => exact Subsingleton.elim (α := Fin 1) _ _
  | ⟨1, _⟩ => exact Subsingleton.elim (α := Fin 1) _ _
  | ⟨2, _⟩ => rfl

/-- The tile after the body at any index. -/
theorem tile_at (x0 x1 : Vec Ideal S800x64 .f32) (x2 x3 : Vec Ideal S800x16 .f32) (prev : Vec Ideal S1x1x128 .f32)
    (i : S1x1x128.Idx) : tileAfter x0 x1 x2 x3 prev i = prev i + chunk x0 x1 x2 x3 * mask i := by
  have h := tile_lane x0 x1 x2 x3 prev (i 2)
  have e := idx_eq i
  exact (congrArg (tileAfter x0 x1 x2 x3 prev) e).trans
    (h.trans (congrArg (fun j => prev j + chunk x0 x1 x2 x3 * mask i) e.symm))

/-- The sum of squares over the tiles of chunk `t` is chunk `t`'s sum over the whole arrays. -/
theorem chunk_blk (c : Dev nD) (t : Fin cfg0.N) :
    chunk (blk0 m c t) (blk1 m c t) (blk2 m c t) (blk3 m c t)
      = addend (arr0 m c) (arr1 m c) (arr2 m c) (arr3 m c) t.val := by
  have hN : cfg0.N = 2000 := N_0
  have ht : t.val < 2000 := by have := t.isLt; omega
  unfold addend
  rw [dif_pos ht]
  unfold chunk chunkAt
  refine Finset.sum_congr rfl fun i _ => ?_
  exact congrArg (fun a : EReal => a * a)
    (rowK_congr (blk0 m c t) (blk1 m c t) (blk2 m c t) (blk3 m c t) (arr0 m c) (arr1 m c) (arr2 m c) (arr3 m c)
      (i 1) ⟨800 * t.val + (i 1).val, row_lt t (i 1)⟩
      (fun q => blk0_apply m c t (i 1) q) (fun q => blk1_apply m c t (i 1) q)
      (fun q => blk2_apply m c t (i 1) q) (fun q => blk3_apply m c t (i 1) q) _ _)

/-- The tile a core's first chunk leaves, and the step every later chunk makes. -/
def reset (c : Dev nD) (n : Nat) (h : n < cfg0.N) : S1x1x128.Idx → EReal :=
  tileAfter (blk0 m c ⟨n, h⟩) (blk1 m c ⟨n, h⟩) (blk2 m c ⟨n, h⟩) (blk3 m c ⟨n, h⟩) zeroTile
def step (c : Dev nD) (n : Nat) (h : n < cfg0.N) (acc : S1x1x128.Idx → EReal) : S1x1x128.Idx → EReal :=
  tileAfter (blk0 m c ⟨n, h⟩) (blk1 m c ⟨n, h⟩) (blk2 m c ⟨n, h⟩) (blk3 m c ⟨n, h⟩) acc

theorem outs_reset (c : Dev nD) (n : Nat) (h : n < cfg0.N) (h0 : n % 1000 = 0) :
    outsAt0 m c n h = reset m c n h :=
  (outsAt0_A m c ⟨n, h⟩ h0).trans (tile_first ..)

theorem outs_step (c : Dev nD) (n : Nat) (h : n + 1 < cfg0.N) (h0 : ¬(n + 1) % 1000 = 0) :
    outsAt0 m c (n + 1) h = step m c (n + 1) h (outsAt0 m c n (Nat.lt_of_succ_lt h)) :=
  (outsAt0_B m c ⟨n + 1, h⟩ h0).trans (tile_next ..)

/-- The tile after chunk `t`, at any index: the running sum of its core's chunk sums so far, on lane 0. -/
theorem outs_fold (c : Dev nD) (t : Fin cfg0.N) (i : S1x1x128.Idx) :
    outsAt0 m c t.val t.isLt i
      = 0 + ∑ s ∈ Finset.range (t.val % 1000 + 1),
          addend (arr0 m c) (arr1 m c) (arr2 m c) (arr3 m c) (1000 * (t.val / 1000) + s) * mask i := by
  have h' : 1000 * (t.val / 1000) + t.val % 1000 < cfg0.N := by rw [Nat.div_add_mod]; exact t.isLt
  rw [Pipeline.eq_accAt_of_mod (outsAt0 m c) 1000 (reset m c) (step m c) (outs_reset m c) (outs_step m c) (by decide)
    t.val t.isLt h']
  refine Pipeline.accAt_add_apply (reset m c) (step m c) (fun _ => (0 : EReal))
    (fun n i => addend (arr0 m c) (arr1 m c) (arr2 m c) (arr3 m c) n * mask i) (1000 * (t.val / 1000)) 999 ?_ ?_
    (t.val % 1000) (by omega) h' i
  · intro h i
    unfold reset
    rw [tile_at, chunk_blk]
    congr 1
    exact zero_word
  · intro n h acc i _ _
    unfold step
    rw [tile_at, chunk_blk]

end Cert.Proof.KAccum

end
-- ==== Proof.Final.lean ====
/-
  The kernel's run, read at the ideal instance.

  The [2, 1, 128] result array is written back twice, at the last chunk of each core, with that core's tile: row `p`
  ends holding core `p`'s sum of chunk sums on lane 0 (`result`). The lines after the call take lane 0 of the two
  rows and add them from zero: `Spec.kernelTotal` of the four streamed arrays.
-/
import proofs.«431077_j49340584296528_4_alg».proof.Proof.Accum
import Idealize.ShloMosaic.Lib.StableHlo.Run
import Idealize.ShloMosaic.Lib.Pipeline.Value
import Idealize.ShloMosaic.PureOps.Ideal.Laws

set_option maxRecDepth 16384

open scoped BigOperators

noncomputable section

namespace Cert.Proof.KFinal

open Idealize.ShloMosaic Idealize.ShloMosaic.TcCoe Idealize.ShloMosaic.ValueIdx Idealize.ShloMosaic.StableHlo
open Idealize.SL Idealize.SL.Sem
open Cert.KernelIdeal Cert.KernelIdeal.Gen Cert.Proof.KBody Cert.Proof.KTile Cert.Proof.KBlocks Cert.Proof.KAccum Cert.Proof.Spec

variable (m : (ℓ : Loc nD τ sig) → Buf (Elt Ideal) ℓ) (ρ : Dev nD → PrngReg)

/-- What the [2, 1, 128] result array ends holding: row `p` is core `p`'s sum on lane 0, zero on the other lanes. -/
def result (c : Dev nD) : S2x1x128.Idx → EReal := fun i =>
  0 + ∑ s ∈ Finset.range 1000,
    addend (arr0 m c) (arr1 m c) (arr2 m c) (arr3 m c) (1000 * (i 0).val + s) * (if (i 2).val = 0 then 1 else 0)

/-- The output window's block at chunk `t` is row `t / 1000` of the result array, whole. -/
theorem index4 : ∀ t : Fin cfg0.N, win0_4.index t (0 : Fin 3) = t.val / 1000 ∧ win0_4.index t (1 : Fin 3) = 0
      ∧ win0_4.index t (2 : Fin 3) = 0 ∧ win0_4.xsize (grid0.coords t) (0 : Fin 3) = 1
      ∧ win0_4.xsize (grid0.coords t) (1 : Fin 3) = 1 ∧ win0_4.xsize (grid0.coords t) (2 : Fin 3) = 128 :=
  (by decide +kernel : ∀ t : Fin grid0.N, win0_4.index t (0 : Fin 3) = t.val / 1000 ∧ win0_4.index t (1 : Fin 3) = 0
      ∧ win0_4.index t (2 : Fin 3) = 0 ∧ win0_4.xsize (grid0.coords t) (0 : Fin 3) = 1
      ∧ win0_4.xsize (grid0.coords t) (1 : Fin 3) = 1 ∧ win0_4.xsize (grid0.coords t) (2 : Fin 3) = 128)

/-- The write-back at the last chunk of a core writes that core's row of `result`. -/
theorem flushed_eq (c : Dev nD) (t : Fin cfg0.N) (hf : (cfg0.win 4).flush t = true) :
    (dats m 0 c).flushed 4 t = ((cfg0.win 4).blk t).view.read (Elt Ideal) (result m c) := by
  have h999 : t.val % 1000 = 999 := (flush0_4 t).mp hf
  show (cfg0.win 4).cut (grid0.coords t) ((dats m 0 c).after 4 t) = _
  rw [after0_4]
  funext y
  show outsAt0 m c t.val t.isLt ((cfg0.win 4).xinj (grid0.coords t) y) = result m c (((cfg0.win 4).blk t).view.emb y)
  rw [outs_fold, h999]
  obtain ⟨h0, h1, h2, s0, s1, s2⟩ := index4 t
  have hy0 : (y 0).val < win0_4.xsize (grid0.coords t) 0 := (y 0).isLt
  rw [s0] at hy0
  have e0 : ((((cfg0.win 4).blk t).view.emb y) (0 : Fin 3)).val = t.val / 1000 := by
    show win0_4.index t 0 * 1 + 1 * (y 0).val = _
    rw [h0]; omega
  have e2 : ((((cfg0.win 4).blk t).view.emb y) (2 : Fin 3)).val = (((cfg0.win 4).xinj (grid0.coords t) y) (2 : Fin 3)).val := by
    show win0_4.index t 2 * 128 + 1 * (y 2).val = (y 2).val
    rw [h2]; omega
  unfold result
  dsimp only
  rw [e0, e2]

/-- Every index of the result array lies in the block written back at the last chunk of its row's core. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 2000 := N_0
  have hi0 : (i 0).val < 2 := (i 0).isLt
  have hi1 : (i 1).val < 1 := (i 1).isLt
  have hi2 : (i 2).val < 128 := (i 2).isLt
  have hlt : 1000 * (i 0).val + 999 < cfg0.N := by omega
  refine ⟨⟨1000 * (i 0).val + 999, hlt⟩, (flush0_4 _).mpr (by show (1000 * (i 0).val + 999) % 1000 = 999; omega), ?_⟩
  obtain ⟨h0, h1, h2, s0, s1, s2⟩ := index4 ⟨1000 * (i 0).val + 999, hlt⟩
  show i ∈ ((View.whole main_v28).slice (win0_4.rect ⟨1000 * (i 0).val + 999, hlt⟩)).set
  rw [View.set_slice_whole, Rect.mem_set_unit]
  intro a
  match a with
  | ⟨0, _⟩ =>
    show win0_4.index ⟨1000 * (i 0).val + 999, hlt⟩ 0 * 1 ≤ (i 0 : Nat) ∧ (i 0 : Nat) < win0_4.index ⟨1000 * (i 0).val + 999, hlt⟩ 0 * 1 + win0_4.xsize (grid0.coords ⟨1000 * (i 0).val + 999, hlt⟩) 0
    rw [h0, s0]; dsimp only; omega
  | ⟨1, _⟩ =>
    show win0_4.index ⟨1000 * (i 0).val + 999, hlt⟩ 1 * 1 ≤ (i 1 : Nat) ∧ (i 1 : Nat) < win0_4.index ⟨1000 * (i 0).val + 999, hlt⟩ 1 * 1 + win0_4.xsize (grid0.coords ⟨1000 * (i 0).val + 999, hlt⟩) 1
    rw [h1, s1]; omega
  | ⟨2, _⟩ =>
    show win0_4.index ⟨1000 * (i 0).val + 999, hlt⟩ 2 * 128 ≤ (i 2 : Nat) ∧ (i 2 : Nat) < win0_4.index ⟨1000 * (i 0).val + 999, hlt⟩ 2 * 128 + win0_4.xsize (grid0.coords ⟨1000 * (i 0).val + 999, hlt⟩) 2
    rw [h2, s2]; omega

/-- So the result array ends holding `result`. -/
theorem final4 (c : Dev nD) : (dats m 0 c).arrAt 4 cfg0.N = result m c :=
  (dats m 0 c).arrAt_eq_of_cover 4 (result m c) (flushed_eq m c) (cover c)

/-- Lane 0 of row `p` of the result array, as the lines after the call read it: core `p`'s sum. -/
theorem row_lane0 (c : Dev nD) (p : S2.Idx) :
    shapeCast S2 (extractStridedSlice (s := S2x1x128) S2x1x1 ![0, 0, 0] (result m c) slices_S2x1x128_S2x1x1_0_0_0)
        shapeCasts_S2x1x1_S2 p
      = coreSum (arr0 m c) (arr1 m c) (arr2 m c) (arr3 m c) (p 0).val := by
  rw [shapeCast_apply _ shapeCasts_S2x1x1_S2 p (ix3 (p 0) (0 : Fin 1) (0 : Fin 1))
    (by rw [Shape.rowMajor_val_three, Shape.rowMajor_val_one]
        show ((p 0).val * 1 + 0) * 1 + 0 = (p 0).val
        omega)]
  rw [extractStridedSlice_apply _ _ slices_S2x1x128_S2x1x1_0_0_0 (ix3 (p 0) (0 : Fin 1) (0 : Fin 1))
    (ix3 (p 0) (0 : Fin 1) (0 : Fin 128)) (fun a => by
      match a with
      | ⟨0, _⟩ => show (p 0).val = 0 + (p 0).val; omega
      | ⟨1, _⟩ => rfl
      | ⟨2, _⟩ => rfl)]
  unfold result coreSum
  dsimp only
  congr 1
  refine Finset.sum_congr rfl fun s _ => ?_
  show addend (arr0 m c) (arr1 m c) (arr2 m c) (arr3 m c) (1000 * (p 0).val + s) * (if (0 : Nat) = 0 then 1 else 0) = _
  rw [if_pos rfl, mul_one]

/-- The array the lines after the call find at the result array's reference is `result`. -/
theorem result_found (c : Dev nD) :
    Pipeline.withArrays (cfgs 0).spec c (V0 m c) (fun w => (dats m 0 c).arrAt w (cfgs 0).N) (Proc.devRef .tc main_v28)
      = result m c :=
  (Pipeline.withArrays_arr spec0 launch0.win.arr_inj c _ _ 4).trans (final4 m c)

/-- Lane 0 of the two rows, added from zero by the host's sum, is the kernel's total. -/
theorem host_sum (c : Dev nD) (j : S_.Idx) :
    Host.reduceAdd (F := Ideal) (φ := .f32) (shapeCast S2 (extractStridedSlice (s := S2x1x128) S2x1x1 ![0, 0, 0] (result m c) slices_S2x1x128_S2x1x1_0_0_0) shapeCasts_S2x1x1_S2)
      (constant (F := Ideal) S_ .f32 0x00000000#32) reducesTo_S2_S_d0 h_S_ j
      = kernelTotal (arr0 m c) (arr1 m c) (arr2 m c) (arr3 m c) := by
  simp only [Host.reduceAdd, Ideal.hostReduceAdd_def]
  rw [Ideal.hostReduceAdd_total reducesTo_S2_S_d0 (fun b => b.elim0)]
  unfold kernelTotal
  exact congrArg₂ (· + ·) Ideal.ofBits_zero_f32 (Finset.sum_congr rfl fun p _ => row_lane0 m c p)

/-- The lines after the call: lane 0 of the two rows, summed from zero. -/
theorem tail_eq (c : Dev nD) :
    Pipeline.afterTail₀ cfgs (dats m) 0 (V0 m) [hostOps1] c main_v31
      = fun _ => kernelTotal (arr0 m c) (arr1 m c) (arr2 m c) (arr3 m c) := by
  unfold Pipeline.afterTail₀
  show StableHlo.after hostOps1 _ (Proc.devRef .tc main_v31) = _
  after_results
  rw [result_found m c]
  funext j
  exact host_sum m c j

/-- THE KERNEL'S RUN, READ: every weakly fair execution ends with the result at the kernel's total of the four streamed
    arrays and the arguments as launched. -/
theorem run : θ_run defs (onTc (τ := τ) (main (F := Ideal))) ⟨m, fun _ => 0, ρ⟩ fun r => ∀ c : Dev nD,
      r.2.mem ((c.tc : Thread nD τ).loc main_v31) = (fun _ => kernelTotal (arr0 m c) (arr1 m c) (arr2 m c) (arr3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof.KFinal

end
-- ==== Proof.LibGather3.lean ====
/-
  The row gather of a rank-3 operand `[N, A, B]` at a column `[E, 1]` of start indices, READ AT AN INDEX: result
  `(e, a, b)` is the operand at `(row (idx (e, 0)), a, b)`, with `row` the index word read signed and clamped into
  `[0, N − 1]` — the same row function as for the rank-2 row gather.
-/
import Idealize.ShloMosaic.PureOps.Ideal
import Idealize.ShloMosaic.Lib.ValueIdx
import proofs.«431077_j49340584296528_4_alg».proof.Proof.LibGatherScatter

namespace Cert.Proof.G3

open Idealize.ShloMosaic Idealize.ShloMosaic.ValueIdx

/-- Row gather of rank-3 operand [N, A, B] at a column [E, 1] of start indices into [E, A, B]: axis 0 collapsed and start-indexed, axes 1 and 2 offset axes of full width. -/
abbrev gath3 (N E A B : Nat) (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE RANK-3 ROW GATHER AT `(e, a, b)`: the operand at row `row (idx (e, 0))`, inner coordinates `a`, `b`. On
    axis 0 (collapsed, no batching) the operand coordinate is the clamped start; axes 1 and 2 are not start-indexed
    and are the first and second kept axes, read by the result's offset axes 1 and 2. -/
theorem gather_gath3_apply {α : Type} {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (gath3 N E A B wf) x idx (ix3 e a b) = x (ix3 (Cert.Proof.GS.row hN (idx (ix2 e (0 : Fin 1)))) a b) := by
  unfold Host.gather
  congr 1
  funext c
  refine Fin.ext ?_
  match c with
  | ⟨0, _⟩ =>
    show (gath3 N E A B wf).start (ix3 e a b) idx 0 + (gath3 N E A B wf).batchCoord (ix3 e a b) 0
      + (gath3 N E A B wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (gath3 N E A B wf).startIndexMap from List.mem_singleton.mpr rfl)]
    show min (idx _).toInt.toNat (N - 1) = min (idx (ix2 e (0 : Fin 1))).toInt.toNat (N - 1)
    congr 3
    congr 1
    funext b'
    refine Fin.ext ?_
    match b' with
    | ⟨0, _⟩ => rfl
    | ⟨1, _⟩ => rfl
  | ⟨1, _⟩ =>
    show (gath3 N E A B wf).start (ix3 e a b) idx 1 + (gath3 N E A B wf).batchCoord (ix3 e a b) 1
      + (gath3 N E A B wf).offCoord (ix3 e a b) 1 = a.val
    rw [GatherDims.batchCoord_eq_zero _ _ _ List.not_mem_nil]
    have h1 : (1 : Fin 3) ∉ (gath3 N E A B wf).startIndexMap :=
      show (1 : Fin 3) ∉ ([0] : List (Fin 3)) by decide
    have hk : (1 : Fin 3) ∈ (gath3 N E A B wf).sKept :=
      (GatherDims.mem_sKept _ _).mpr ⟨show (1 : Fin 3) ∉ ([0] : List (Fin 3)) by decide, List.not_mem_nil⟩
    unfold GatherDims.start GatherDims.offCoord
    rw [dif_neg h1, dif_pos hk]
    simp only [Nat.zero_add]
    rfl
  | ⟨2, _⟩ =>
    show (gath3 N E A B wf).start (ix3 e a b) idx 2 + (gath3 N E A B wf).batchCoord (ix3 e a b) 2
      + (gath3 N E A B wf).offCoord (ix3 e a b) 2 = b.val
    rw [GatherDims.batchCoord_eq_zero _ _ _ List.not_mem_nil]
    have h1 : (2 : Fin 3) ∉ (gath3 N E A B wf).startIndexMap :=
      show (2 : Fin 3) ∉ ([0] : List (Fin 3)) by decide
    have hk : (2 : Fin 3) ∈ (gath3 N E A B wf).sKept :=
      (GatherDims.mem_sKept _ _).mpr ⟨show (2 : Fin 3) ∉ ([0] : List (Fin 3)) by decide, List.not_mem_nil⟩
    unfold GatherDims.start GatherDims.offCoord
    rw [dif_neg h1, dif_pos hk]
    simp only [Nat.zero_add]
    rfl

end Cert.Proof.G3
-- ==== Proof.RefValue.lean ====
/-
  THE REFERENCE'S VALUE. The reference program's result, read operation by operation, is `Spec.refResult` of its four
  arguments: zero plus the sum, over every edge `e` and entry `(i, f)`, of the square of
      ∑ k, maps (rev e) (i, k) · x[tgt e] (k, f)  −  ∑ k, maps e (i, k) · x[src e] (k, f).

  * the three index columns the gathers read are the index normalisation (a negative word has the extent added) of the reverse-edge word (against 1600000) and of
    rows 1 and 0 of the edge list (against 50000);
  * each gather reads the operand at the clamped row of its word, inner coordinates unchanged;
  * the two batched products are sums over `k : Fin 4`; the flattened-row descriptions of `Spec` read the same entries
    since `(4·i + k) / 4 = i`, `(4·i + k) % 4 = k`, `(16·k + f) / 16 = k`, `(16·k + f) % 16 = f`.
-/
import proofs.«431077_j49340584296528_4_alg».proof.Proof.Gen.ReferenceIdeal.Read
import proofs.«431077_j49340584296528_4_alg».proof.Proof.Spec
import proofs.«431077_j49340584296528_4_alg».proof.Proof.LibGather3

open scoped BigOperators

noncomputable section

namespace Cert.Proof.RefValue

open Cert.ReferenceIdeal Cert.ReferenceIdeal.Gen Cert.ReferenceIdeal.Read
open Idealize.ShloMosaic Idealize.ShloMosaic.ValueIdx

/-! ## The flattened rows of `Spec` at a column `4·i + k`, resp. `16·k + f` -/

theorem mapRows_c4 (mp : (⟨3, ![1600000, 4, 4]⟩ : Shape).Idx → EReal) (e : Fin 1600000) (i k : Fin 4) :
    Spec.mapRows mp (ix2 e (Spec.c4 i k)) = mp (ix3 e i k) := by
  unfold Spec.mapRows
  congr 1
  funext a
  match a with
  | ⟨0, _⟩ => rfl
  | ⟨1, _⟩ => exact Fin.ext (by show (4 * i.val + k.val) / 4 = i.val; omega)
  | ⟨2, _⟩ => exact Fin.ext (by show (4 * i.val + k.val) % 4 = k.val; omega)

theorem revMapRows_c4 (mp : (⟨3, ![1600000, 4, 4]⟩ : Shape).Idx → EReal) (rv : IVec ⟨1, ![1600000]⟩ 32)
    (e : Fin 1600000) (i k : Fin 4) :
    Spec.revMapRows mp rv (ix2 e (Spec.c4 i k)) = mp (ix3 (Spec.revOf rv e) i k) := by
  unfold Spec.revMapRows
  congr 1
  funext a
  match a with
  | ⟨0, _⟩ => rfl
  | ⟨1, _⟩ => exact Fin.ext (by show (4 * i.val + k.val) / 4 = i.val; omega)
  | ⟨2, _⟩ => exact Fin.ext (by show (4 * i.val + k.val) % 4 = k.val; omega)

theorem xRows_c16 (x : (⟨3, ![50000, 4, 16]⟩ : Shape).Idx → EReal) (ei : IVec ⟨2, ![2, 1600000]⟩ 32) (r : Fin 2)
    (e : Fin 1600000) (k : Fin 4) (f : Fin 16) :
    Spec.xRows x ei r (ix2 e (Spec.c16 k f)) = x (ix3 (Spec.nodeOf ei r e) k f) := by
  unfold Spec.xRows
  congr 1
  funext a
  match a with
  | ⟨0, _⟩ => rfl
  | ⟨1, _⟩ => exact Fin.ext (by show (16 * k.val + f.val) / 16 = k.val; omega)
  | ⟨2, _⟩ => exact Fin.ext (by show (16 * k.val + f.val) % 16 = f.val; omega)

/-! ## The three index columns -/

/-- The reverse-edge column: the reverse word of `e`, normalised against the edge count. -/
theorem col_rev (x3 : (⟨S1600000, .i32⟩ : BufTy).Contents (Elt Ideal)) (e : Fin 1600000) :
    val_main_v9 (F := Ideal) x3 (ix2 e (0 : Fin 1)) = Spec.nrm 1600000#32 (x3 (ix1 e)) := by
  rw [val_main_v9_apply, val_main_v8_apply, val_main_v5_apply, val_main_v7_apply, val_main_v4_apply, val_main_c_apply,
    val_main_v6_apply, val_main_c_0_apply]
  have hi : idx_main_v9 (ix2 e (0 : Fin 1)) = ix1 e := by
    funext a; match a with | ⟨0, _⟩ => rfl
  rw [hi]
  rfl

/-- Row 1 of the edge list at `e`. -/
theorem read_v3 (x2 : (⟨S2x1600000, .i32⟩ : BufTy).Contents (Elt Ideal)) (e : Fin 1600000) :
    val_main_v3 (F := Ideal) x2 (ix1 e) = x2 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- Row 0 of the edge list at `e`. -/
theorem read_v1 (x2 : (⟨S2x1600000, .i32⟩ : BufTy).Contents (Elt Ideal)) (e : Fin 1600000) :
    val_main_v1 (F := Ideal) x2 (ix1 e) = x2 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- The target column: row 1 of the edge list at `e`, normalised against the node count. -/
theorem col_tgt (x2 : (⟨S2x1600000, .i32⟩ : BufTy).Contents (Elt Ideal)) (e : Fin 1600000) :
    val_main_v16 (F := Ideal) x2 (ix2 e (0 : Fin 1)) = Spec.nrm 50000#32 (x2 (ix2 (1 : Fin 2) e)) := by
  rw [val_main_v16_apply, val_main_v15_apply, val_main_v12_apply, val_main_v14_apply, val_main_v11_apply,
    val_main_c_1_apply, val_main_v13_apply, val_main_c_2_apply]
  have hi : idx_main_v16 (ix2 e (0 : Fin 1)) = ix1 e := by
    funext a; match a with | ⟨0, _⟩ => rfl
  rw [hi, read_v3]
  rfl

/-- The source column: row 0 of the edge list at `e`, normalised against the node count. -/
theorem col_src (x2 : (⟨S2x1600000, .i32⟩ : BufTy).Contents (Elt Ideal)) (e : Fin 1600000) :
    val_main_v24 (F := Ideal) x2 (ix2 e (0 : Fin 1)) = Spec.nrm 50000#32 (x2 (ix2 (0 : Fin 2) e)) := by
  rw [val_main_v24_apply, val_main_v23_apply, val_main_v20_apply, val_main_v22_apply, val_main_v19_apply,
    val_main_c_3_apply, val_main_v21_apply, val_main_c_4_apply]
  have hi : idx_main_v24 (ix2 e (0 : Fin 1)) = ix1 e := by
    funext a; match a with | ⟨0, _⟩ => rfl
  rw [hi, read_v1]
  rfl

/-! ## The three gathers -/

/-- The gathered reverse maps: entry `(i, k)` of the maps of `e`'s reverse edge. -/
theorem read_v10 (x1 : (⟨S1600000x4x4, .f32⟩ : BufTy).Contents (Elt Ideal))
    (x3 : (⟨S1600000, .i32⟩ : BufTy).Contents (Elt Ideal)) (e : Fin 1600000) (i k : Fin 4) :
    val_main_v10 (F := Ideal) x1 x3 (ix3 e i k) = x1 (ix3 (Spec.revOf x3 e) i k) := by
  unfold val_main_v10
  show Host.gather (G3.gath3 1600000 1600000 4 4 gather_S1600000x4x4_S1600000x1_S1600000x4x4_12_0_n_n_0_1_144_wf) x1
    (val_main_v9 (F := Ideal) x3) (ix3 e i k) = _
  rw [G3.gather_gath3_apply (by decide), col_rev]
  rfl

/-- The gathered target features: entry `(k, f)` of the features of `e`'s target node. -/
theorem read_v17 (x0 : (⟨S50000x4x16, .f32⟩ : BufTy).Contents (Elt Ideal))
    (x2 : (⟨S2x1600000, .i32⟩ : BufTy).Contents (Elt Ideal)) (e : Fin 1600000) (k : Fin 4) (f : Fin 16) :
    val_main_v17 (F := Ideal) x0 x2 (ix3 e k f) = x0 (ix3 (Spec.nodeOf x2 1 e) k f) := by
  unfold val_main_v17
  show Host.gather (G3.gath3 50000 1600000 4 16 gather_S50000x4x16_S1600000x1_S1600000x4x16_12_0_n_n_0_1_1416_wf) x0
    (val_main_v16 (F := Ideal) x2) (ix3 e k f) = _
  rw [G3.gather_gath3_apply (by decide), col_tgt]
  rfl

/-- The gathered source features: entry `(k, f)` of the features of `e`'s source node. -/
theorem read_v25 (x0 : (⟨S50000x4x16, .f32⟩ : BufTy).Contents (Elt Ideal))
    (x2 : (⟨S2x1600000, .i32⟩ : BufTy).Contents (Elt Ideal)) (e : Fin 1600000) (k : Fin 4) (f : Fin 16) :
    val_main_v25 (F := Ideal) x0 x2 (ix3 e k f) = x0 (ix3 (Spec.nodeOf x2 0 e) k f) := by
  unfold val_main_v25
  show Host.gather (G3.gath3 50000 1600000 4 16 gather_S50000x4x16_S1600000x1_S1600000x4x16_12_0_n_n_0_1_1416_wf) x0
    (val_main_v24 (F := Ideal) x2) (ix3 e k f) = _
  rw [G3.gather_gath3_apply (by decide), col_src]
  rfl

/-! ## The two batched products -/

/-- The product with the reverse maps at `(e, i, f)`. -/
theorem read_v18 (x0 : (⟨S50000x4x16, .f32⟩ : BufTy).Contents (Elt Ideal)) (x1 : (⟨S1600000x4x4, .f32⟩ : BufTy).Contents (Elt Ideal))
    (x2 : (⟨S2x1600000, .i32⟩ : BufTy).Contents (Elt Ideal)) (x3 : (⟨S1600000, .i32⟩ : BufTy).Contents (Elt Ideal))
    (e : Fin 1600000) (i : Fin 4) (f : Fin 16) :
    val_main_v18 (F := Ideal) x0 x1 x2 x3 (ix3 e i f)
      = ∑ k : Fin 4, Spec.revMapRows x1 x3 (ix2 e (Spec.c4 i k)) * Spec.xRows x0 x2 1 (ix2 e (Spec.c16 k f)) := by
  rw [val_main_v18_apply]
  refine Finset.sum_congr rfl fun k _ => ?_
  have hl : lidx_main_v18 (ix3 e i f) k = ix3 e i k := by
    funext a; match a with | ⟨0, _⟩ => rfl | ⟨1, _⟩ => rfl | ⟨2, _⟩ => rfl
  have hr : ridx_main_v18 (ix3 e i f) k = ix3 e k f := by
    funext a; match a with | ⟨0, _⟩ => rfl | ⟨1, _⟩ => rfl | ⟨2, _⟩ => rfl
  rw [hl, hr, read_v10, read_v17, revMapRows_c4, xRows_c16]

/-- The product with the maps at `(e, i, f)`. -/
theorem read_v26 (x0 : (⟨S50000x4x16, .f32⟩ : BufTy).Contents (Elt Ideal)) (x1 : (⟨S1600000x4x4, .f32⟩ : BufTy).Contents (Elt Ideal))
    (x2 : (⟨S2x1600000, .i32⟩ : BufTy).Contents (Elt Ideal)) (e : Fin 1600000) (i : Fin 4) (f : Fin 16) :
    val_main_v26 (F := Ideal) x0 x1 x2 (ix3 e i f)
      = ∑ k : Fin 4, Spec.mapRows x1 (ix2 e (Spec.c4 i k)) * Spec.xRows x0 x2 0 (ix2 e (Spec.c16 k f)) := by
  rw [val_main_v26_apply]
  refine Finset.sum_congr rfl fun k _ => ?_
  have hl : lidx_main_v26 (ix3 e i f) k = ix3 e i k := by
    funext a; match a with | ⟨0, _⟩ => rfl | ⟨1, _⟩ => rfl | ⟨2, _⟩ => rfl
  have hr : ridx_main_v26 (ix3 e i f) k = ix3 e k f := by
    funext a; match a with | ⟨0, _⟩ => rfl | ⟨1, _⟩ => rfl | ⟨2, _⟩ => rfl
  rw [hl, hr, read_v25, mapRows_c4, xRows_c16]

/-! ## The result -/

theorem ref_value (x0 : (⟨Cert.ReferenceIdeal.S50000x4x16, .f32⟩ : BufTy).Contents (Elt Ideal)) (x1 : (⟨Cert.ReferenceIdeal.S1600000x4x4, .f32⟩ : BufTy).Contents (Elt Ideal))
    (x2 : (⟨Cert.ReferenceIdeal.S2x1600000, .i32⟩ : BufTy).Contents (Elt Ideal)) (x3 : (⟨Cert.ReferenceIdeal.S1600000, .i32⟩ : BufTy).Contents (Elt Ideal)) (i : Cert.ReferenceIdeal.S_.Idx) :
    Cert.ReferenceIdeal.Read.val_main_v29 (F := Ideal) x0 x1 x2 x3 i = Cert.Proof.Spec.refResult x0 x1 x2 x3 := by
  rw [val_main_v29_apply, val_main_cst_apply, Ideal.ofBits_def, Ideal.ofBits_zero_f32]
  unfold Spec.refResult Spec.refTotal
  refine congrArg (fun s : EReal => (0 : EReal) + s) ?_
  refine Finset.sum_congr rfl fun J _ => ?_
  have h18 := (congrArg (val_main_v18 (F := Ideal) x0 x1 x2 x3) (eq_ix3 J)).trans
    (read_v18 x0 x1 x2 x3 (J 0) (J 1) (J 2))
  have h26 := (congrArg (val_main_v26 (F := Ideal) x0 x1 x2) (eq_ix3 J)).trans
    (read_v26 x0 x1 x2 (J 0) (J 1) (J 2))
  rw [val_main_v28_apply, val_main_v27_apply, h18, h26]
  rfl

end Cert.Proof.RefValue

end
-- ==== Proof.HostPrefix.lean ====
/-
  The four arrays the kernel streams, as the host lines before the call leave them, entry by entry.

  Before the call the program reshapes the features to [50000, 64] and the maps to [1600000, 16], gathers the
  feature rows of every edge's source and target node, and gathers and reshapes the maps of every edge's reverse.
  Entry by entry these are the arrays `Spec.xRows` (sources: row 0 of the edge list; targets: row 1),
  `Spec.mapRows` and `Spec.revMapRows`: a gathered row is the row of the clamped, normalised index word, and a
  reshape keeps row-major position (`64·n + l = (4·n + l / 16)·16 + l % 16`, `16·e + l = (4·e + l / 4)·4 + l % 4`).
-/
import proofs.«431077_j49340584296528_4_alg».proof.Proof.Blocks
import proofs.«431077_j49340584296528_4_alg».proof.Proof.RefValue
import Idealize.ShloMosaic.Lib.StableHlo.Run
import Idealize.ShloMosaic.Lib.Pipeline.Value

set_option maxRecDepth 16384

noncomputable section

namespace Cert.Proof.KHost

open Idealize.ShloMosaic Idealize.ShloMosaic.TcCoe Idealize.ShloMosaic.ValueIdx Idealize.ShloMosaic.StableHlo
open Idealize.SL Idealize.SL.Sem
open Cert.KernelIdeal Cert.KernelIdeal.Gen Cert.Proof.KBlocks

variable (m : (ℓ : Loc nD τ sig) → Buf (Elt Ideal) ℓ)

theorem arr2_eq (c : Dev nD) : arr2 m c = Spec.mapRows (m ((c : Thread nD τ).loc main_arg1)) := by
  funext q
  obtain ⟨e, l, rfl⟩ : ∃ (e : Fin 1600000) (l : Fin 16), q = ix2 e l := ⟨q 0, q 1, eq_ix2 q⟩
  show StableHlo.after hostOps0 (fun b => m (c, b)) (Proc.devRef .tc main_v5) (ix2 e l) = _
  after_results
  show shapeCast S1600000x16 (m ((c : Thread nD τ).loc main_arg1)) shapeCasts_S1600000x4x4_S1600000x16 (ix2 e l) = _
  have hl := l.isLt
  exact shapeCast_apply _ _ _ (ix3 e ⟨l.val / 4, by omega⟩ ⟨l.val % 4, Nat.mod_lt _ (by decide)⟩)
    (by rw [Shape.rowMajor_val_three, Shape.rowMajor_val_two]
        show (e.val * 4 + l.val / 4) * 4 + l.val % 4 = e.val * 16 + l.val
        omega)

theorem arr3_eq (c : Dev nD) :
    arr3 m c = Spec.revMapRows (m ((c : Thread nD τ).loc main_arg1)) (m ((c : Thread nD τ).loc main_arg3)) := by
  funext q
  obtain ⟨e, l, rfl⟩ : ∃ (e : Fin 1600000) (l : Fin 16), q = ix2 e l := ⟨q 0, q 1, eq_ix2 q⟩
  show StableHlo.after hostOps0 (fun b => m (c, b)) (Proc.devRef .tc main_v13) (ix2 e l) = _
  after_results
  show shapeCast S1600000x16 (Cert.ReferenceIdeal.Read.val_main_v10 (F := Ideal) (m ((c : Thread nD τ).loc main_arg1))
    (m ((c : Thread nD τ).loc main_arg3))) shapeCasts_S1600000x4x4_S1600000x16 (ix2 e l) = _
  have hl := l.isLt
  rw [shapeCast_apply _ _ _ (ix3 e ⟨l.val / 4, by omega⟩ ⟨l.val % 4, Nat.mod_lt _ (by decide)⟩)
    (by rw [Shape.rowMajor_val_three, Shape.rowMajor_val_two]
        show (e.val * 4 + l.val / 4) * 4 + l.val % 4 = e.val * 16 + l.val
        omega)]
  exact Cert.Proof.RefValue.read_v10 _ _ e _ _

/-- A gathered, flattened feature row: at `(e, l)` the features of the node of edge `e` in row `k` of the edge list,
    at `(l / 16, l % 16)`. -/
theorem rows_aux (X : (⟨3, ![50000, 4, 16]⟩ : Shape).Idx → EReal) (x2 : IVec ⟨2, ![2, 1600000]⟩ 32)
    (idx : IVec ⟨2, ![1600000, 1]⟩ 32) (k : Fin 2)
    (hidx : ∀ e : Fin 1600000, idx (ix2 e (0 : Fin 1)) = Spec.nrm 50000#32 (x2 (ix2 k e))) (e : Fin 1600000) (l : Fin 64) :
    Host.gather (Cert.Proof.GS.gathD 50000 1600000 64 gather_S50000x64_S1600000x1_S1600000x64_1_0_n_n_0_1_164_wf)
      (shapeCast S50000x64 X shapeCasts_S50000x4x16_S50000x64) idx (ix2 e l) = Spec.xRows X x2 k (ix2 e l) := by
  rw [Cert.Proof.GS.gather_gathD_apply (by decide), hidx]
  show shapeCast S50000x64 X shapeCasts_S50000x4x16_S50000x64 (ix2 (Spec.nodeOf x2 k e) l)
    = X (ix3 (Spec.nodeOf x2 k e) ⟨l.val / 16, by have := l.isLt; omega⟩ ⟨l.val % 16, Nat.mod_lt _ (by decide)⟩)
  generalize Spec.nodeOf x2 k e = n
  have hl := l.isLt
  exact shapeCast_apply _ _ _ _
    (by rw [Shape.rowMajor_val_three, Shape.rowMajor_val_two]
        show (n.val * 4 + l.val / 16) * 16 + l.val % 16 = n.val * 64 + l.val
        omega)

theorem arr0_eq (c : Dev nD) :
    arr0 m c = Spec.xRows (m ((c : Thread nD τ).loc main_arg0)) (m ((c : Thread nD τ).loc main_arg2)) 0 := by
  funext q
  obtain ⟨e, l, rfl⟩ : ∃ (e : Fin 1600000) (l : Fin 64), q = ix2 e l := ⟨q 0, q 1, eq_ix2 q⟩
  show StableHlo.after hostOps0 (fun b => m (c, b)) (Proc.devRef .tc main_v20) (ix2 e l) = _
  after_results
  show Host.gather (Cert.Proof.GS.gathD 50000 1600000 64 gather_S50000x64_S1600000x1_S1600000x64_1_0_n_n_0_1_164_wf)
    (shapeCast S50000x64 (m ((c : Thread nD τ).loc main_arg0)) shapeCasts_S50000x4x16_S50000x64)
    (Cert.ReferenceIdeal.Read.val_main_v24 (F := Ideal) (m ((c : Thread nD τ).loc main_arg2))) (ix2 e l) = _
  exact rows_aux _ _ _ 0 (fun e => Cert.Proof.RefValue.col_src _ e) e l

set_option maxHeartbeats 1000000 in
theorem arr1_eq (c : Dev nD) :
    arr1 m c = Spec.xRows (m ((c : Thread nD τ).loc main_arg0)) (m ((c : Thread nD τ).loc main_arg2)) 1 := by
  funext q
  obtain ⟨e, l, rfl⟩ : ∃ (e : Fin 1600000) (l : Fin 64), q = ix2 e l := ⟨q 0, q 1, eq_ix2 q⟩
  show StableHlo.after hostOps0 (fun b => m (c, b)) (Proc.devRef .tc main_v27) (ix2 e l) = _
  after_results_simp
  show Host.gather (Cert.Proof.GS.gathD 50000 1600000 64 gather_S50000x64_S1600000x1_S1600000x64_1_0_n_n_0_1_164_wf)
    (shapeCast S50000x64 (m ((c : Thread nD τ).loc main_arg0)) shapeCasts_S50000x4x16_S50000x64)
    (Cert.ReferenceIdeal.Read.val_main_v16 (F := Ideal) (m ((c : Thread nD τ).loc main_arg2))) (ix2 e l) = _
  exact rows_aux _ _ _ 1 (fun e => Cert.Proof.RefValue.col_tgt _ e) e l

end Cert.Proof.KHost

end
-- ==== Proof.Algebra.lean ====
/-
  The two totals agree when all entries are real numbers.

  (i) Entry by entry, the kernel's running accumulation `rowK` and the reference's difference of two sums `rowR`
      are the same real number: with real entries every product, sum and difference below is the coercion of the
      corresponding real expression, and the two real expressions agree by commutative-ring arithmetic.
  (ii) The kernel's nesting (2 cores × 1000 chunks × a [1, 800, 64] tile whose lane `l` stands for entry
      `(l / 16, l % 16)`) enumerates every triple `(e, i, f)` with `e = 800·(1000·p + s) + r` exactly once; this is a
      re-indexing of a finite sum in a commutative additive monoid, proved for an arbitrary summand.
-/
import proofs.«431077_j49340584296528_4_alg».proof.Proof.Spec
import Mathlib.Algebra.BigOperators.Fin
import Mathlib.Data.EReal.Basic
import Mathlib.Tactic.Ring

open scoped BigOperators

noncomputable section

namespace Cert.Proof.Algebra

open Idealize.ShloMosaic Idealize.ShloMosaic.ValueIdx Cert.Proof.Spec

/-! ## (i) One entry: accumulation order does not matter over the reals -/

/-- The accumulation `((((0 + a₀b₀) − c₀d₀) + a₁b₁) − c₁d₁) …` equals `Σ aⱼbⱼ − Σ cⱼdⱼ` for real numbers, read in `EReal`. -/
theorem acc_eq_diff (a0 a1 a2 a3 b0 b1 b2 b3 c0 c1 c2 c3 d0 d1 d2 d3 : ℝ) :
    ((((((((0 : EReal) + (a0 : EReal) * (b0 : EReal)) - (c0 : EReal) * (d0 : EReal))
      + (a1 : EReal) * (b1 : EReal)) - (c1 : EReal) * (d1 : EReal))
      + (a2 : EReal) * (b2 : EReal)) - (c2 : EReal) * (d2 : EReal))
      + (a3 : EReal) * (b3 : EReal)) - (c3 : EReal) * (d3 : EReal)
    = ((a0 : EReal) * (b0 : EReal) + (a1 : EReal) * (b1 : EReal) + (a2 : EReal) * (b2 : EReal) + (a3 : EReal) * (b3 : EReal))
      - ((c0 : EReal) * (d0 : EReal) + (c1 : EReal) * (d1 : EReal) + (c2 : EReal) * (d2 : EReal) + (c3 : EReal) * (d3 : EReal)) := by
  rw [zero_add]
  simp only [← EReal.coe_mul, ← EReal.coe_add, ← EReal.coe_sub]
  rw [EReal.coe_eq_coe_iff]
  ring

/-- With real entries the kernel's entry and the reference's entry coincide. -/
theorem rowK_eq_rowR {R : Nat} (xs xt : (⟨2, ![R, 64]⟩ : Shape).Idx → EReal) (fuv fvu : (⟨2, ![R, 16]⟩ : Shape).Idx → EReal)
    (hxs : ∀ q, ∃ a : ℝ, xs q = (a : EReal)) (hxt : ∀ q, ∃ a : ℝ, xt q = (a : EReal))
    (hfuv : ∀ q, ∃ a : ℝ, fuv q = (a : EReal)) (hfvu : ∀ q, ∃ a : ℝ, fvu q = (a : EReal))
    (r : Fin R) (i : Fin 4) (f : Fin 16) :
    rowK xs xt fuv fvu r i f = rowR xs xt fuv fvu r i f := by
  unfold rowK rowR
  rw [Fin.sum_univ_four, Fin.sum_univ_four]
  obtain ⟨a0, ha0⟩ := hfvu (ix2 r (c4 i 0))
  obtain ⟨a1, ha1⟩ := hfvu (ix2 r (c4 i 1))
  obtain ⟨a2, ha2⟩ := hfvu (ix2 r (c4 i 2))
  obtain ⟨a3, ha3⟩ := hfvu (ix2 r (c4 i 3))
  obtain ⟨b0, hb0⟩ := hxt (ix2 r (c16 0 f))
  obtain ⟨b1, hb1⟩ := hxt (ix2 r (c16 1 f))
  obtain ⟨b2, hb2⟩ := hxt (ix2 r (c16 2 f))
  obtain ⟨b3, hb3⟩ := hxt (ix2 r (c16 3 f))
  obtain ⟨c0, hc0⟩ := hfuv (ix2 r (c4 i 0))
  obtain ⟨c1, hc1⟩ := hfuv (ix2 r (c4 i 1))
  obtain ⟨c2, hc2⟩ := hfuv (ix2 r (c4 i 2))
  obtain ⟨c3, hc3⟩ := hfuv (ix2 r (c4 i 3))
  obtain ⟨d0, hd0⟩ := hxs (ix2 r (c16 0 f))
  obtain ⟨d1, hd1⟩ := hxs (ix2 r (c16 1 f))
  obtain ⟨d2, hd2⟩ := hxs (ix2 r (c16 2 f))
  obtain ⟨d3, hd3⟩ := hxs (ix2 r (c16 3 f))
  rw [ha0, ha1, ha2, ha3, hb0, hb1, hb2, hb3, hc0, hc1, hc2, hc3, hd0, hd1, hd2, hd3]
  exact acc_eq_diff a0 a1 a2 a3 b0 b1 b2 b3 c0 c1 c2 c3 d0 d1 d2 d3

/-! ## (ii) Re-indexing -/

section Regroup
variable {M : Type*} [AddCommMonoid M]

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {n : Nat} (f : (⟨1, ![n]⟩ : Shape).Idx → M) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- Core `p`, step `s` is chunk `1000·p + s`. -/
def coreEquiv : Fin 2 × Fin 1000 ≃ Fin 2000 where
  toFun p := ⟨1000 * p.1.val + p.2.val, by have := p.1.isLt; have := p.2.isLt; omega⟩
  invFun t := (⟨t.val / 1000, by have := t.isLt; omega⟩, ⟨t.val % 1000, Nat.mod_lt _ (by decide)⟩)
  left_inv p := by
    have h1 := p.1.isLt; have h2 := p.2.isLt
    apply Prod.ext <;> apply Fin.ext <;> simp only <;> omega
  right_inv t := by
    apply Fin.ext; simp only; omega

/-- Chunk `t`, row `r` is edge `800·t + r`. -/
def edgeEquiv : Fin 2000 × Fin 800 ≃ Fin 1600000 where
  toFun p := ⟨800 * p.1.val + p.2.val, by have := p.1.isLt; have := p.2.isLt; omega⟩
  invFun e := (⟨e.val / 800, by have := e.isLt; omega⟩, ⟨e.val % 800, Nat.mod_lt _ (by decide)⟩)
  left_inv p := by
    have h1 := p.1.isLt; have h2 := p.2.isLt
    apply Prod.ext <;> apply Fin.ext <;> simp only <;> omega
  right_inv e := by
    apply Fin.ext; simp only; omega

/-- Matrix entry `(i, f)` is lane `16·i + f`. -/
def laneEquiv : Fin 4 × Fin 16 ≃ Fin 64 where
  toFun p := ⟨16 * p.1.val + p.2.val, by have := p.1.isLt; have := p.2.isLt; omega⟩
  invFun l := (⟨l.val / 16, by have := l.isLt; omega⟩, ⟨l.val % 16, Nat.mod_lt _ (by decide)⟩)
  left_inv p := by
    have h1 := p.1.isLt; have h2 := p.2.isLt
    apply Prod.ext <;> apply Fin.ext <;> simp only <;> omega
  right_inv l := by
    apply Fin.ext; simp only; omega

/-- A sum over the 64 lanes, lane `l` read as entry `(l / 16, l % 16)`, is the sum over the 4 × 16 entries. -/
theorem sum_lanes (k : Fin 4 → Fin 16 → M) :
    ∑ l : Fin 64, k ⟨l.val / 16, by have := l.isLt; omega⟩ ⟨l.val % 16, Nat.mod_lt _ (by decide)⟩
      = ∑ a : Fin 4, ∑ f : Fin 16, k a f := by
  have h := Equiv.sum_comp laneEquiv.symm (fun p : Fin 4 × Fin 16 => k p.1 p.2)
  rw [Fintype.sum_prod_type] at h
  exact h

/-- A sum over a [1, 800, 64] tile, lane `l` read as entry `(l / 16, l % 16)`, is the sum over rows and entries. -/
theorem sum_tile (h : Fin 800 → Fin 4 → Fin 16 → M) :
    ∑ i : (⟨3, ![1, 800, 64]⟩ : Shape).Idx,
        h (i 1) ⟨(i 2).val / 16, by have := idx3_lt2 i; omega⟩ ⟨(i 2).val % 16, Nat.mod_lt _ (by decide)⟩
      = ∑ r : Fin 800, ∑ a : Fin 4, ∑ f : Fin 16, h r a f := by
  rw [sum_idx3, Fin.sum_univ_one]
  exact Finset.sum_congr rfl fun r _ => sum_lanes (h r)

/-- The sum over chunks and rows is the sum over edges. -/
theorem sum_edges (G : Fin 1600000 → M) :
    ∑ t : Fin 2000, ∑ r : Fin 800, G ⟨800 * t.val + r.val, by have := t.isLt; have := r.isLt; omega⟩
      = ∑ e : Fin 1600000, G e := by
  rw [← Equiv.sum_comp edgeEquiv G, Fintype.sum_prod_type]
  rfl

/-- The two cores' 1000 steps each, each accumulated from zero, run through the 2000 chunks once. -/
theorem sum_cores (A : Nat → M) (C : Fin 2000 → M) (hAC : ∀ t : Fin 2000, A t.val = C t) :
    ∑ p : (⟨1, ![2]⟩ : Shape).Idx, (0 + ∑ s ∈ Finset.range 1000, A (1000 * (p 0).val + s))
      = ∑ t : Fin 2000, C t := by
  rw [sum_idx1, ← Equiv.sum_comp coreEquiv C, Fintype.sum_prod_type]
  refine Finset.sum_congr rfl fun p _ => ?_
  rw [zero_add, Finset.sum_range]
  exact Finset.sum_congr rfl fun s _ => hAC ⟨1000 * p.val + s.val, by have := p.isLt; have := s.isLt; omega⟩

/-- A sum over all `(e, i, f)` as an iterated sum. -/
theorem sum_all (g : Fin 1600000 → Fin 4 → Fin 16 → M) :
    ∑ J : (⟨3, ![1600000, 4, 16]⟩ : Shape).Idx, g (J 0) (J 1) (J 2)
      = ∑ e : Fin 1600000, ∑ a : Fin 4, ∑ f : Fin 16, g e a f := by
  rw [sum_idx3]

end Regroup

/-! ## The two totals -/

theorem kernelTotal_eq_refTotal
    (XS XT : (⟨2, ![1600000, 64]⟩ : Idealize.ShloMosaic.Shape).Idx → EReal) (FUV FVU : (⟨2, ![1600000, 16]⟩ : Idealize.ShloMosaic.Shape).Idx → EReal)
    (hXS : ∀ q, ∃ a : ℝ, XS q = (a : EReal)) (hXT : ∀ q, ∃ a : ℝ, XT q = (a : EReal))
    (hFUV : ∀ q, ∃ a : ℝ, FUV q = (a : EReal)) (hFVU : ∀ q, ∃ a : ℝ, FVU q = (a : EReal)) :
    Cert.Proof.Spec.kernelTotal XS XT FUV FVU = Cert.Proof.Spec.refTotal XS XT FUV FVU := by
  -- the kernel's side: cores and steps → chunks
  have hcores : ∑ p : (⟨1, ![2]⟩ : Shape).Idx, coreSum XS XT FUV FVU (p 0).val
      = ∑ t : Fin 2000, chunkAt XS XT FUV FVU t := by
    refine sum_cores (addend XS XT FUV FVU) (chunkAt XS XT FUV FVU) fun t => ?_
    unfold addend
    rw [dif_pos t.isLt]
  -- one chunk: tile → rows and entries
  have hchunk : ∀ t : Fin 2000, chunkAt XS XT FUV FVU t
      = ∑ r : Fin 800, ∑ a : Fin 4, ∑ f : Fin 16,
          sq (rowK XS XT FUV FVU ⟨800 * t.val + r.val, by have := t.isLt; have := r.isLt; omega⟩ a f) := fun t =>
    sum_tile fun r a f => sq (rowK XS XT FUV FVU ⟨800 * t.val + r.val, by have := t.isLt; have := r.isLt; omega⟩ a f)
  unfold kernelTotal refTotal
  rw [zero_add, zero_add, hcores]
  simp only [hchunk]
  rw [sum_edges fun e => ∑ a : Fin 4, ∑ f : Fin 16, sq (rowK XS XT FUV FVU e a f),
    sum_all fun e a f => sq (rowR XS XT FUV FVU e a f)]
  refine Finset.sum_congr rfl fun e _ => Finset.sum_congr rfl fun a _ => Finset.sum_congr rfl fun f _ => ?_
  rw [rowK_eq_rowR XS XT FUV FVU hXS hXT hFUV hFVU e a f]

end Cert.Proof.Algebra

end
-- ==== Proof.Finite.lean ====
/-
  The precondition read back: when the finiteness predicate evaluates to true at the ideal
  (extended-real) instance, every entry of the two float inputs is a real number.

  The predicate is  (∀ entries of x0, |x| < +∞) ∧ (∀ entries of x1, |x| < +∞),  each
  universal statement printed as an and-reduction over all axes.  On the extended reals
  |x| = max x (-x); for x = ⊥ or x = ⊤ this is ⊤, which is not below ⊤, so x is a real.
-/
import proofs.«431077_j49340584296528_4_alg».proof.Pre_finite_inputs
import proofs.«431077_j49340584296528_4_alg».proof.Proof.Gen.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

namespace Cert.Proof.Finite

open Idealize.ShloMosaic Idealize.ShloMosaic.ValueIdx

/-- The f32 pattern of +∞ denotes the top extended real. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < (⊤ : EReal)) : ∃ a : ℝ, x = (a : EReal) := by
  induction x using EReal.rec with
  | bot => simp at h
  | coe a => exact ⟨a, rfl⟩
  | top => simp at h

/-- The element fact: the comparison word |x| < +∞ being 1 makes x a real. -/
theorem real_of_cmp (x : EReal)
    (h : Ideal.cmp .olt (max x (-x)) (Ideal.ofBits .f32 0x7F800000#32) = 1#1) : ∃ a : ℝ, x = (a : EReal) := by
  rw [ofBits_inf] at h
  apply real_of_abs_lt_top
  by_contra hn
  simp [Ideal.cmp, hn] at h

instance : Subsingleton Cert.Pre_finite_inputs.S_.Idx := ⟨fun a b => funext fun d => d.elim0⟩

variable [Cert.Pre_finite_inputs.Facts]

theorem real_of_pre (x0 : FVec Ideal Cert.Pre_finite_inputs.S50000x4x16 .f32) (x1 : FVec Ideal Cert.Pre_finite_inputs.S1600000x4x4 .f32)
    (x2 : IVec Cert.Pre_finite_inputs.S2x1600000 32) (x3 : IVec Cert.Pre_finite_inputs.S1600000 32)
    (h : Cert.Pre_finite_inputs.fn (F := Ideal) x0 x1 x2 x3 = fun _ => 1#1) :
    (∀ i, ∃ a : ℝ, x0 i = (a : EReal)) ∧ (∀ i, ∃ a : ℝ, x1 i = (a : EReal)) := by
  have h0 := congrFun h ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_cmp (x0 i) e
  · have e := Host.reduce_andi_all _ _ _ _ _ hb i
    exact real_of_cmp (x1 i) e

end Cert.Proof.Finite

end
-- ==== Proof.lean ====
/-
  The certificate: the kernel and its jnp reference compute the same Dirichlet energy over the extended reals.

  For every directed edge `e` both programs form the 4 × 16 matrix
  `Fvu e · x[tgt e] − Fuv e · x[src e]` (`Fuv e = maps e`, `Fvu e = maps (rev e)`) and return the sum of the squares of
  all entries of all edges' matrices.

  * The kernel gathers the rows on the host, streams them in 2000 chunks of 800 edges over two cores, accumulates
    each matrix entry one product at a time from zero, sums each chunk's squares into lane 0 of its core's tile, and
    adds the two cores' sums (`Spec.kernelResult`: the kernel's run read in Final.lean over the streamed arrays, which
    HostPrefix.lean reads entry by entry).
  * The reference forms the two matrix products, subtracts, squares and sums over everything
    (`Spec.refResult`: RefValue.lean, over the reference's generated run).
  * For finite inputs every entry is a real number, where the two orders of accumulation agree and a sum may be
    regrouped freely (Algebra.lean); finiteness is the precondition (Finite.lean).

  The three frames are the generated ones; the idealization rewrote nothing, so `preserves` is trivial.
-/
import proofs.«431077_j49340584296528_4_alg».proof.Defs
import proofs.«431077_j49340584296528_4_alg».proof.Proof.Gen.Kernel
import proofs.«431077_j49340584296528_4_alg».proof.Proof.Gen.Kernel.Skeleton
import proofs.«431077_j49340584296528_4_alg».proof.Proof.Gen.Kernel.Launch
import proofs.«431077_j49340584296528_4_alg».proof.Proof.Gen.Kernel.Points
import proofs.«431077_j49340584296528_4_alg».proof.Proof.Gen.Kernel.Frame
import proofs.«431077_j49340584296528_4_alg».proof.Proof.Gen.KernelIdeal
import proofs.«431077_j49340584296528_4_alg».proof.Proof.Gen.KernelIdeal.Skeleton
import proofs.«431077_j49340584296528_4_alg».proof.Proof.Gen.KernelIdeal.Launch
import proofs.«431077_j49340584296528_4_alg».proof.Proof.Gen.KernelIdeal.Points
import proofs.«431077_j49340584296528_4_alg».proof.Proof.Gen.KernelIdeal.Frame
import proofs.«431077_j49340584296528_4_alg».proof.Proof.Gen.ReferenceIdeal
import proofs.«431077_j49340584296528_4_alg».proof.Proof.Gen.ReferenceIdeal.Run
import proofs.«431077_j49340584296528_4_alg».proof.Proof.Gen.ReferenceIdeal.Read
import proofs.«431077_j49340584296528_4_alg».proof.Proof.Gen.Pre_finite_inputs
import proofs.«431077_j49340584296528_4_alg».proof.Proof.Final
import proofs.«431077_j49340584296528_4_alg».proof.Proof.HostPrefix
import proofs.«431077_j49340584296528_4_alg».proof.Proof.RefValue
import proofs.«431077_j49340584296528_4_alg».proof.Proof.Algebra
import proofs.«431077_j49340584296528_4_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-! ## Real entries stay real under the re-layouts -/

theorem xRows_real (x : (⟨3, ![50000, 4, 16]⟩ : Shape).Idx → EReal) (ei : IVec ⟨2, ![2, 1600000]⟩ 32) (k : Fin 2)
    (hx : ∀ i, ∃ a : ℝ, x i = (a : EReal)) : ∀ q, ∃ a : ℝ, Spec.xRows x ei k q = (a : EReal) := fun _ => hx _

theorem mapRows_real (mp : (⟨3, ![1600000, 4, 4]⟩ : Shape).Idx → EReal) (hm : ∀ i, ∃ a : ℝ, mp i = (a : EReal)) :
    ∀ q, ∃ a : ℝ, Spec.mapRows mp q = (a : EReal) := fun _ => hm _

theorem revMapRows_real (mp : (⟨3, ![1600000, 4, 4]⟩ : Shape).Idx → EReal) (rv : IVec ⟨1, ![1600000]⟩ 32)
    (hm : ∀ i, ∃ a : ℝ, mp i = (a : EReal)) : ∀ q, ∃ a : ℝ, Spec.revMapRows mp rv q = (a : EReal) := fun _ => hm _

/-- For finite features and maps the two programs' results are one number. -/
theorem results_agree (x : (⟨3, ![50000, 4, 16]⟩ : Shape).Idx → EReal) (mp : (⟨3, ![1600000, 4, 4]⟩ : Shape).Idx → EReal)
    (ei : IVec ⟨2, ![2, 1600000]⟩ 32) (rv : IVec ⟨1, ![1600000]⟩ 32)
    (hx : ∀ i, ∃ a : ℝ, x i = (a : EReal)) (hm : ∀ i, ∃ a : ℝ, mp i = (a : EReal)) :
    Spec.kernelResult x mp ei rv = Spec.refResult x mp ei rv :=
  Algebra.kernelTotal_eq_refTotal _ _ _ _ (xRows_real x ei 0 hx) (xRows_real x ei 1 hx) (mapRows_real mp hm)
    (revMapRows_real mp rv hm)

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends at `Spec.kernelResult` of the arguments, the reference's at `Spec.refResult` of arguments that
    agree; the precondition makes the features and the maps finite, where the two are equal. -/
theorem algebraic : Cert.algebraic_KernelIdeal_ReferenceIdeal := by
  intro m ρ m' ρ' hpre hagree
  refine ⟨fun c => fun _ => Spec.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (KFinal.run m ρ)
    rw [KHost.arr0_eq, KHost.arr1_eq, KHost.arr2_eq, KHost.arr3_eq]
    rfl
  · refine (θ_run Cert.ReferenceIdeal.defs _ _).mono (fun _ h c => ⟨(h c).1.trans ?_, (h c).2⟩)
      (Cert.ReferenceIdeal.Value.run (F := Ideal) m' ρ')
    obtain ⟨hx, hm⟩ := Finite.real_of_pre _ _ _ _ (hpre c)
    rw [Cert.ReferenceIdeal.Read.val_main_v29_eq]
    funext i
    rw [RefValue.ref_value, (hagree c).1, (hagree c).2.1, (hagree c).2.2.1, (hagree c).2.2.2]
    exact (results_agree _ _ _ _ hx hm).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
